-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S2048x1024 .f32 .bf16
  ∧ IdealRules.truncf_extf.Statement Cert.KernelIdeal.S512x1024 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16x2048x1024 .f32) (main_arg1 : FVec F S16x2048x1024 .f32) (main_arg2 : FVec F S1024x1024 .f32) (main_arg3 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16x2048x1024 : Shape := ⟨3, ![16, 2048, 1024]⟩
abbrev S1024x1024 : Shape := ⟨2, ![1024, 1024]⟩
abbrev S1024 : Shape := ⟨1, ![1024]⟩
abbrev S1x1024 : Shape := ⟨2, ![1, 1024]⟩
abbrev S1x2048x1024 : Shape := ⟨3, ![1, 2048, 1024]⟩
abbrev S1x512x1024 : Shape := ⟨3, ![1, 512, 1024]⟩
abbrev S2048x1 : Shape := ⟨2, ![2048, 1]⟩
abbrev S2048x1024 : Shape := ⟨2, ![2048, 1024]⟩
abbrev S512x1024 : Shape := ⟨2, ![512, 1024]⟩
abbrev S2048x512 : Shape := ⟨2, ![2048, 512]⟩
abbrev S2048 : Shape := ⟨1, ![2048]⟩

abbrev nBuf : Space → Nat
  | .hbm => 10
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S1024x1024, .bf16⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S16x2048x1024, .f32⟩
  | .local _ .vmem, ⟨0, _⟩ => ⟨S1x2048x1024, .f32⟩
  | .local _ .vmem, ⟨1, _⟩ => ⟨S1x512x1024, .f32⟩
  | .local _ .vmem, ⟨2, _⟩ => ⟨S1x512x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x2048x1024, .f32⟩
  | .local _ .vmem, ⟨7, _⟩ => ⟨S2048x1, .f32⟩
  | .local _ .vmem, ⟨8, _⟩ => ⟨S2048x1, .f32⟩
  | .local _ .vmem, ⟨9, _⟩ => ⟨S2048x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v68 : BitVec 1 := Scalar.cmpi .eq arg1 c3_i32
  let v69 : BitVec 32 := Scalar.extui v68
  let c0_i32_34 : BitVec 32 := 0#32
  let v70 : BitVec 1 := Scalar.cmpi .ne v69 c0_i32_34
  v70

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

class Facts₀ : Prop where
  shapeCasts_S1024_S1x1024 : S1024.ShapeCasts S1x1024
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x1024 : S2048x1.Broadcasts S2048x1024
  broadcasts_S1x1024_S2048x1024 : S1x1024.Broadcasts S2048x1024
  shapeCasts_S2048x1024_S1x2048x1024 : S2048x1024.ShapeCasts S1x2048x1024
  dot_S512x1024_S1024x1024_S512x1024_1_1_0_0_n_n_wf : DotDims.WF S512x1024 S1024x1024 S512x1024 [1] [1] [0] [0] [] []
  dot_S2048x1024_S512x1024_S2048x512_1_1_0_0_n_n_wf : DotDims.WF S2048x1024 S512x1024 S2048x512 [1] [1] [0] [0] [] []
  dot_S2048x512_S512x1024_S2048x1024_1_0_0_1_n_n_wf : DotDims.WF S2048x512 S512x1024 S2048x1024 [1] [0] [0] [1] [] []
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S16x2048x1024.size a
  hwx0_0 : ∀ i : grid0.Coords, EltTy.bits .f32 = 32 ∨ (Rect.block (s := S16x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x2048x1024.size a
  hwx0_1 : ∀ i : grid0.Coords, EltTy.bits .f32 = 32 ∨ (Rect.block (s := S16x2048x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048x1024.size a ≤ S16x2048x1024.size a
  hwx0_5 : ∀ i : grid0.Coords, EltTy.bits .f32 = 32 ∨ (Rect.block (s := S16x2048x1024) S1x2048x1024.size (cc0_transform_5 i) (hinb0_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2048x1024.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16x2048x1024 : Shape := ⟨3, ![16, 2048, 1024]⟩
abbrev S1024x1024 : Shape := ⟨2, ![1024, 1024]⟩
abbrev S1024 : Shape := ⟨1, ![1024]⟩
abbrev S1x1x1024 : Shape := ⟨3, ![1, 1, 1024]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S16x2048x1024, .f32⟩
  | .hbm, ⟨5, _⟩ => ⟨S1x1x1024, .f32⟩
  | .hbm, ⟨6, _⟩ => ⟨S16x2048x1024, .f32⟩
  | .hbm, ⟨7, _⟩ => ⟨S16x2048x1024, .f32⟩
  | .hbm, ⟨8, _⟩ => ⟨S16x2048x2048, .f32⟩
  | .hbm, ⟨9, _⟩ => ⟨S_, .f32⟩
  | .hbm, ⟨10, _⟩ => ⟨S16x2048, .f32⟩
  | .hbm, ⟨11, _⟩ => ⟨S_, .f32⟩
  | .hbm, ⟨12, _⟩ => ⟨S16x2048, .f32⟩
  | .hbm, ⟨13, _⟩ => ⟨S16x2048, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S16x2048x2048, .f32⟩
  | .hbm, ⟨22, _⟩ => ⟨S16x2048x2048, .f32⟩
  | .hbm, ⟨23, _⟩ => ⟨S16x2048x1024, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048x1024, .f32⟩
  | .hbm, ⟨30, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_cst : Ref sig .tc := ⟨.hbm, 28, rfl⟩
abbrev main_call0_v0 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S_S16x2048x1024 : S_.BroadcastsInDim S16x2048x1024 (![] : Fin 0 → Fin S16x2048x1024.rank)
  dot_S16x2048x1024_S1024x1024_S16x2048x1024_2_1_01_0_n_n_wf : DotDims.WF S16x2048x1024 S1024x1024 S16x2048x1024 [2] [1] [0, 1] [0] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.LibSoftmaxReal.lean ====
/-
  Exponentially weighted means over a finite family of real scores, as an attention row computes them.

  Three facts, all over the real numbers:
  * the weighted mean  (∑ e^(s q - c) · v q) / (∑ e^(s q - c))  does not depend on the shift c;
  * dividing every weight by the total first, then summing, gives the same mean;
  * a running pair (total weight, weighted sum) kept relative to a shift μ is carried to a new shift μ'
    by the factor e^(μ - μ'), and extended by one more block of scores taken relative to μ'.
  Together they say that a blockwise pass with a moving shift ends at the same mean as the one-pass
  formula with any shift at all; which shift either side used never has to be identified.
-/
import Mathlib.Analysis.SpecialFunctions.Exp
import Mathlib.Data.EReal.Basic
import Mathlib.Algebra.BigOperators.Fin

noncomputable section

namespace Cert.AttnReal

open Finset

/-- The coercion into the extended reals of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A total weight of exponentials over a nonempty family is positive. -/
theorem sum_exp_pos {ι : Type*} [Fintype ι] [Nonempty ι] (s : ι → ℝ) : 0 < ∑ q, Real.exp (s q) :=
  Finset.sum_pos (fun q _ => Real.exp_pos _) Finset.univ_nonempty

/-- The exponentially weighted mean is invariant under shifting every score by the same amount. -/
theorem mean_shift {ι : Type*} [Fintype ι] (s v : ι → ℝ) (c : ℝ) :
    (∑ q, Real.exp (s q - c) * v q) / (∑ q, Real.exp (s q - c))
      = (∑ q, Real.exp (s q) * v q) / (∑ q, Real.exp (s q)) := by
  have h : ∀ q, Real.exp (s q - c) = Real.exp (-c) * Real.exp (s q) := fun q => by
    rw [← Real.exp_add]; congr 1; ring
  simp only [h, mul_assoc, ← Finset.mul_sum]
  exact mul_div_mul_left _ _ (Real.exp_pos _).ne'

/-- Normalising each weight by the total before the weighted sum is the weighted sum over the total. -/
theorem sum_div_mul {ι : Type*} [Fintype ι] (e v : ι → ℝ) (L : ℝ) :
    ∑ q, e q / L * v q = (∑ q, e q * v q) / L := by
  rw [div_eq_mul_inv, Finset.sum_mul]; exact Finset.sum_congr rfl fun q _ => by rw [div_eq_mul_inv]; ring

/-- One block more of a running weighted sum: the sum over the first N scores relative to the shift μ, rescaled to
    the shift μ', plus the next B scores relative to μ', is the sum over the first N + B scores relative to μ'. -/
theorem prefix_step (S V : ℕ → ℝ) (N B : ℕ) (μ μ' : ℝ) :
    Real.exp (μ - μ') * (∑ q ∈ range N, Real.exp (S q - μ) * V q)
        + ∑ j : Fin B, Real.exp (S (N + j.val) - μ') * V (N + j.val)
      = ∑ q ∈ range (N + B), Real.exp (S q - μ') * V q := by
  rw [Finset.sum_range_add, Finset.mul_sum, Fin.sum_univ_eq_sum_range (fun j => Real.exp (S (N + j) - μ') * V (N + j))]
  congr 1
  refine Finset.sum_congr rfl fun q _ => ?_
  rw [← mul_assoc, ← Real.exp_add]; congr 2; ring

/-- The same for the total weight alone. -/
theorem prefix_step_one (S : ℕ → ℝ) (N B : ℕ) (μ μ' : ℝ) :
    Real.exp (μ - μ') * (∑ q ∈ range N, Real.exp (S q - μ))
        + ∑ j : Fin B, Real.exp (S (N + j.val) - μ')
      = ∑ q ∈ range (N + B), Real.exp (S q - μ') := by
  have := prefix_step S (fun _ => 1) N B μ μ'
  simpa using this

end Cert.AttnReal

end
-- ==== Proof.Spec.lean ====
/-
  What both programs compute, as one function of the four argument arrays read as real numbers.

  For a batch n, a query row r and an output column o:
    key   n j o = ∑ h, q n j h · w o h + b o                (the projected rows of q)
    score n r j = ∑ h, p n r h · key n j h                  (unscaled dot products)
    attn  n r h = (∑ j, e^(score n r j) · q n j h) / (∑ j, e^(score n r j))
    out   n r o = max (∑ h, attn n r h · w o h + b o) 0
  The mean `attn` is written with unshifted exponentials: over the reals no shift is needed, and any shift
  either program subtracts before exponentiating cancels between numerator and denominator.
  Two readings of it are proved here: as the quotient of two prefix sums over the first 2048 naturals relative to an
  arbitrary shift (what a blockwise pass arrives at), and as the sum of weights normalised first (what a one-pass
  softmax followed by a contraction computes).
-/
import proofs.«419783_j44547400794507_3_alg».proof.Proof.LibSoftmaxReal
import Idealize.ShloMosaic.Lib.ValueIdx
import Idealize.ShloMosaic.PureOps.Ideal

noncomputable section

namespace Cert.Attn

open Idealize.ShloMosaic Idealize.ShloMosaic.ValueIdx Finset Cert.AttnReal

/-- The four argument arrays as real numbers. -/
structure RIn where
  p : Fin 16 → Fin 2048 → Fin 1024 → ℝ
  q : Fin 16 → Fin 2048 → Fin 1024 → ℝ
  w : Fin 1024 → Fin 1024 → ℝ
  b : Fin 1024 → ℝ

def key (I : RIn) (n : Fin 16) (j : Fin 2048) (o : Fin 1024) : ℝ := ∑ h, I.q n j h * I.w o h + I.b o
def score (I : RIn) (n : Fin 16) (r j : Fin 2048) : ℝ := ∑ h, I.p n r h * key I n j h
def attn (I : RIn) (n : Fin 16) (r : Fin 2048) (h : Fin 1024) : ℝ :=
  (∑ j, Real.exp (score I n r j) * I.q n j h) / (∑ j, Real.exp (score I n r j))
def outR (I : RIn) (n : Fin 16) (r : Fin 2048) (o : Fin 1024) : ℝ := max (∑ h, attn I n r h * I.w o h + I.b o) 0

/-- The arrays as extended reals, index by index. -/
def arrP (I : RIn) : (⟨3, ![16, 2048, 1024]⟩ : Shape).Idx → EReal := fun i => ((I.p (i 0) (i 1) (i 2) : ℝ) : EReal)
def arrQ (I : RIn) : (⟨3, ![16, 2048, 1024]⟩ : Shape).Idx → EReal := fun i => ((I.q (i 0) (i 1) (i 2) : ℝ) : EReal)
def arrW (I : RIn) : (⟨2, ![1024, 1024]⟩ : Shape).Idx → EReal := fun i => ((I.w (i 0) (i 1) : ℝ) : EReal)
def arrB (I : RIn) : (⟨1, ![1024]⟩ : Shape).Idx → EReal := fun i => ((I.b (i 0) : ℝ) : EReal)

/-- The result array both programs end with. -/
def G (I : RIn) : (⟨3, ![16, 2048, 1024]⟩ : Shape).Idx → EReal := fun i => ((outR I (i 0) (i 1) (i 2) : ℝ) : EReal)

theorem G_ix3 (I : RIn) (n : Fin 16) (r : Fin 2048) (o : Fin 1024) : G I (ix3 n r o) = ((outR I n r o : ℝ) : EReal) := rfl
theorem arrP_ix3 (I : RIn) (n : Fin 16) (r : Fin 2048) (h : Fin 1024) : arrP I (ix3 n r h) = ((I.p n r h : ℝ) : EReal) := rfl
theorem arrQ_ix3 (I : RIn) (n : Fin 16) (r : Fin 2048) (h : Fin 1024) : arrQ I (ix3 n r h) = ((I.q n r h : ℝ) : EReal) := rfl
theorem arrW_ix2 (I : RIn) (o h : Fin 1024) : arrW I (ix2 o h) = ((I.w o h : ℝ) : EReal) := rfl
theorem arrB_ix1 (I : RIn) (o : Fin 1024) : arrB I (ix1 o) = ((I.b o : ℝ) : EReal) := rfl

/-- A row's scores, and the rows of q, continued by zero past the last of the 2048 columns: the form in which a pass
    over consecutive blocks of columns counts them. -/
def scoreN (I : RIn) (n : Fin 16) (r : Fin 2048) (j : ℕ) : ℝ := if h : j < 2048 then score I n r ⟨j, h⟩ else 0
def valN (I : RIn) (n : Fin 16) (j : ℕ) (h : Fin 1024) : ℝ := if hj : j < 2048 then I.q n ⟨j, hj⟩ h else 0

theorem scoreN_lt (I : RIn) (n : Fin 16) (r : Fin 2048) (j : ℕ) (h : j < 2048) : scoreN I n r j = score I n r ⟨j, h⟩ := dif_pos h
theorem valN_lt (I : RIn) (n : Fin 16) (j : ℕ) (hj : j < 2048) (h : Fin 1024) : valN I n j h = I.q n ⟨j, hj⟩ h := dif_pos hj

/-- The quotient of the two prefix sums over all 2048 columns, relative to any shift, is the mean. -/
theorem attn_of_prefix (I : RIn) (n : Fin 16) (r : Fin 2048) (h : Fin 1024) (μ : ℝ) :
    (∑ j ∈ range 2048, Real.exp (scoreN I n r j - μ) * valN I n j h) / (∑ j ∈ range 2048, Real.exp (scoreN I n r j - μ))
      = attn I n r h := by
  rw [← Fin.sum_univ_eq_sum_range (fun j => Real.exp (scoreN I n r j - μ) * valN I n j h) 2048,
    ← Fin.sum_univ_eq_sum_range (fun j => Real.exp (scoreN I n r j - μ)) 2048]
  have e1 : ∀ j : Fin 2048, scoreN I n r j.val = score I n r j := fun j => scoreN_lt I n r j.val j.isLt
  have e2 : ∀ j : Fin 2048, valN I n j.val h = I.q n j h := fun j => valN_lt I n j.val j.isLt h
  simp only [e1, e2]
  exact mean_shift _ _ μ

/-- The total weight over all 2048 columns is not zero. -/
theorem prefix_total_ne (I : RIn) (n : Fin 16) (r : Fin 2048) (μ : ℝ) :
    (∑ j ∈ range 2048, Real.exp (scoreN I n r j - μ)) ≠ 0 :=
  (Finset.sum_pos (fun j _ => Real.exp_pos _) (by simp)).ne'

/-- Weights normalised by their total first, then contracted with the rows of q: the same mean, whatever the shift. -/
theorem attn_of_normalised (I : RIn) (n : Fin 16) (r : Fin 2048) (h : Fin 1024) (M : ℝ) :
    ∑ j, Real.exp (score I n r j - M) / (∑ j', Real.exp (score I n r j' - M)) * I.q n j h = attn I n r h := by
  rw [sum_div_mul]
  exact mean_shift _ _ M

/-- The total weight of a row relative to a shift is not zero. -/
theorem total_ne (I : RIn) (n : Fin 16) (r : Fin 2048) (M : ℝ) : (∑ j, Real.exp (score I n r j - M)) ≠ 0 :=
  (Finset.sum_pos (fun j _ => Real.exp_pos _) Finset.univ_nonempty).ne'

end Cert.Attn

end
-- ==== Proof.Blocks.lean ====
/-
  What the five input blocks of a grid point hold, when the four argument arrays hold real numbers.

  Point t belongs to batch t / 4 and to column block t % 4. Its blocks are: the 2048 rows of p of that batch; rows
  512·(t % 4) … +511 of q of that batch; all of w (the host's first format change is the identity); all of w − w,
  which is zero because w is finite; and the bias as one row.
-/
import proofs.«419783_j44547400794507_3_alg».proof.Proof.Spec
import proofs.«419783_j44547400794507_3_alg».proof.Proof.Gen.KernelIdeal.Frame
import Idealize.ShloMosaic.Lib.Pipeline.Value
import Idealize.ShloMosaic.Lib.StableHlo.Run
import Idealize.ShloMosaic.Lib.ValueLayout

noncomputable section

namespace Cert.Attn

open Cert.KernelIdeal Cert.KernelIdeal.Gen Idealize.ShloMosaic Idealize.ShloMosaic.TcCoe Idealize.ShloMosaic.ValueIdx Idealize.SL.Sem

/-- The memory's four argument arrays are the real arrays of `I c`, on every device. -/
def Models (m : (ℓ : Loc nD τ sig) → Buf (Elt Ideal) ℓ) (I : Dev nD → RIn) : Prop :=
  ∀ c : Dev nD,
    (m ((c : Thread nD τ).loc main_arg0) : FVec Ideal S16x2048x1024 .f32) = arrP (I c)
    ∧ (m ((c : Thread nD τ).loc main_arg1) : FVec Ideal S16x2048x1024 .f32) = arrQ (I c)
    ∧ (m ((c : Thread nD τ).loc main_arg2) : FVec Ideal S1024x1024 .f32) = arrW (I c)
    ∧ (m ((c : Thread nD τ).loc main_arg3) : FVec Ideal S1024 .f32) = arrB (I c)

variable (m : (ℓ : Loc nD τ sig) → Buf (Elt Ideal) ℓ)

/-- The batch a grid point works on. -/
def batchOf (t : Fin cfg0.N) : Fin 16 := ⟨t.val / 4, by have h := t.isLt; have hN : cfg0.N = 64 := N_0; omega⟩

/-- The point's five input blocks, at their literal shapes. -/
abbrev blkP (c : Dev nD) (t : Fin cfg0.N) : FVec Ideal S1x2048x1024 .f32 := iblk m c 0 t
abbrev blkQ (c : Dev nD) (t : Fin cfg0.N) : FVec Ideal S1x512x1024 .f32 := iblk m c 1 t
abbrev blkWhi (c : Dev nD) (t : Fin cfg0.N) : FVec Ideal S1024x1024 .bf16 := iblk m c 2 t
abbrev blkWlo (c : Dev nD) (t : Fin cfg0.N) : FVec Ideal S1024x1024 .bf16 := iblk m c 3 t
abbrev blkB (c : Dev nD) (t : Fin cfg0.N) : FVec Ideal S1x1024 .f32 := iblk m c 4 t

variable {m}

/-- The printed index maps over the grid: the first two windows follow the batch, the second also the column block;
    the other three stay at the origin. -/
private theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem blkP_apply {I : Dev nD → RIn} (hI : Models m I) (c : Dev nD) (t : Fin cfg0.N) (r : Fin 2048) (h : Fin 1024) :
    blkP m c t (ix3 (0 : Fin 1) r h) = (((I c).p (batchOf t) r h : ℝ) : EReal) := by
  obtain ⟨e0, e1, e2, -⟩ := idx_facts t
  show V m c main_arg0 (((cfg0.win 0).blk t).view.emb (ix3 (0 : Fin 1) r h)) = _
  have hemb : ((cfg0.win 0).blk t).view.emb (ix3 (0 : Fin 1) r h) = ix3 (batchOf t) r h := by
    funext a; apply Fin.ext
    match a with
    | ⟨0, _⟩ => show win0_0.index t (0 : Fin 3) * 1 + 1 * 0 = t.val / 4; omega
    | ⟨1, _⟩ => show win0_0.index t (1 : Fin 3) * 2048 + 1 * r.val = r.val; omega
    | ⟨2, _⟩ => show win0_0.index t (2 : Fin 3) * 1024 + 1 * h.val = h.val; omega
  rw [hemb]
  show V m c main_arg0 (ix3 (batchOf t) r h) = _
  rw [V_main_arg0]
  exact (congrFun (hI c).1 _).trans (arrP_ix3 (I c) (batchOf t) r h)

theorem blkQ_apply {I : Dev nD → RIn} (hI : Models m I) (c : Dev nD) (t : Fin cfg0.N) (j : Fin 512) (h : Fin 1024) :
    blkQ m c t (ix3 (0 : Fin 1) j h) = ((valN (I c) (batchOf t) (512 * (t.val % 4) + j.val) h : ℝ) : EReal) := by
  obtain ⟨-, -, -, e0, e1, e2, -⟩ := idx_facts t
  have hrow : 512 * (t.val % 4) + j.val < 2048 := by have := j.isLt; omega
  show V m c main_arg1 (((cfg0.win 1).blk t).view.emb (ix3 (0 : Fin 1) j h)) = _
  have hemb : ((cfg0.win 1).blk t).view.emb (ix3 (0 : Fin 1) j h)
      = ix3 (batchOf t) (⟨512 * (t.val % 4) + j.val, hrow⟩ : Fin 2048) h := by
    funext a; apply Fin.ext
    match a with
    | ⟨0, _⟩ => show win0_1.index t (0 : Fin 3) * 1 + 1 * 0 = t.val / 4; omega
    | ⟨1, _⟩ => show win0_1.index t (1 : Fin 3) * 512 + 1 * j.val = 512 * (t.val % 4) + j.val; omega
    | ⟨2, _⟩ => show win0_1.index t (2 : Fin 3) * 1024 + 1 * h.val = h.val; omega
  rw [hemb]
  show V m c main_arg1 (ix3 (batchOf t) (⟨512 * (t.val % 4) + j.val, hrow⟩ : Fin 2048) h) = _
  rw [V_main_arg1, valN_lt (I c) (batchOf t) _ hrow h]
  exact (congrFun (hI c).2.1 _).trans (arrQ_ix3 (I c) (batchOf t) _ h)

/-- The first host format change of w, as the region finds it, is w itself, entry by entry. -/
private theorem whi_entry (c : Dev nD) (i : S1024x1024.Idx) :
    (V m c main_v1 : FVec Ideal S1024x1024 .bf16) i = (m ((c : Thread nD τ).loc main_arg2) : FVec Ideal S1024x1024 .f32) i := by
  have e : @Eq (FVec Ideal S1024x1024 .bf16) (V m c main_v1)
      (truncf .bf16 (m ((c : Thread nD τ).loc main_arg2) : FVec Ideal S1024x1024 .f32) bitsLt_bf16_f32) := by
    dsimp only [Gen.V, Gen.hostOps0]
    after_results
  rw [e]
  rfl

theorem blkWhi_apply {I : Dev nD → RIn} (hI : Models m I) (c : Dev nD) (t : Fin cfg0.N) (o h : Fin 1024) :
    blkWhi m c t (ix2 o h) = (((I c).w o h : ℝ) : EReal) := by
  obtain ⟨-, -, -, -, -, -, e0, e1, -⟩ := idx_facts t
  show V m c main_v1 (((cfg0.win 2).blk t).view.emb (ix2 o h)) = _
  have hemb : ((cfg0.win 2).blk t).view.emb (ix2 o h) = ix2 o h := by
    funext a; apply Fin.ext
    match a with
    | ⟨0, _⟩ => show win0_2.index t (0 : Fin 2) * 1024 + 1 * o.val = o.val; omega
    | ⟨1, _⟩ => show win0_2.index t (1 : Fin 2) * 1024 + 1 * h.val = h.val; omega
  rw [hemb]
  refine (whi_entry c (ix2 o h)).trans ?_
  exact (congrFun (hI c).2.2.1 _).trans (arrW_ix2 (I c) o h)

/-- The array w as launched, at its literal type. -/
private abbrev wArr (m : (ℓ : Loc nD τ sig) → Buf (Elt Ideal) ℓ) (c : Dev nD) : S1024x1024.Idx → EReal :=
  m ((c : Thread nD τ).loc main_arg2)

/-- The second array the host prepares from w is w minus its first format change widened back: entry by entry,
    w minus itself. -/
private theorem wlo_entry (c : Dev nD) (i : S1024x1024.Idx) :
    (V m c main_v4 : FVec Ideal S1024x1024 .bf16) i = wArr m c i - wArr m c i := by
  have e : @Eq (FVec Ideal S1024x1024 .bf16) (V m c main_v4)
      (truncf .bf16 (subf (m ((c : Thread nD τ).loc main_arg2) : FVec Ideal S1024x1024 .f32)
        (extf .f32 (truncf .bf16 (m ((c : Thread nD τ).loc main_arg2) : FVec Ideal S1024x1024 .f32) bitsLt_bf16_f32 : FVec Ideal S1024x1024 .bf16) bitsLt_bf16_f32 : FVec Ideal S1024x1024 .f32) : FVec Ideal S1024x1024 .f32) bitsLt_bf16_f32) := by
    dsimp only [Gen.V, Gen.hostOps0]
    after_results
  rw [e]
  rfl

theorem blkWlo_apply {I : Dev nD → RIn} (hI : Models m I) (c : Dev nD) (t : Fin cfg0.N) (o h : Fin 1024) :
    blkWlo m c t (ix2 o h) = 0 := by
  obtain ⟨-, -, -, -, -, -, -, -, e0, e1, -⟩ := idx_facts t
  show V m c main_v4 (((cfg0.win 3).blk t).view.emb (ix2 o h)) = _
  have hemb : ((cfg0.win 3).blk t).view.emb (ix2 o h) = ix2 o h := by
    funext a; apply Fin.ext
    match a with
    | ⟨0, _⟩ => show win0_3.index t (0 : Fin 2) * 1024 + 1 * o.val = o.val; omega
    | ⟨1, _⟩ => show win0_3.index t (1 : Fin 2) * 1024 + 1 * h.val = h.val; omega
  rw [hemb]
  refine (wlo_entry c (ix2 o h)).trans ?_
  have hw : wArr m c (ix2 o h) = (((I c).w o h : ℝ) : EReal) :=
    (congrFun (hI c).2.2.1 _).trans (arrW_ix2 (I c) o h)
  rw [hw, ← EReal.coe_sub, sub_self, EReal.coe_zero]

/-- The bias as the region finds it: the one-row array whose entry (0, o) is entry o of the bias. -/
private theorem bias_entry (c : Dev nD) (o : Fin 1024) :
    (V m c main_v0 : FVec Ideal S1x1024 .f32) (ix2 (0 : Fin 1) o) = (m ((c : Thread nD τ).loc main_arg3) : FVec Ideal S1024 .f32) (ix1 o) := by
  have e : @Eq (FVec Ideal S1x1024 .f32) (V m c main_v0)
      (shapeCast S1x1024 (m ((c : Thread nD τ).loc main_arg3) : FVec Ideal S1024 .f32) shapeCasts_S1024_S1x1024) := by
    dsimp only [Gen.V, Gen.hostOps0]
    after_results
    rfl
  rw [e]
  refine shapeCast_apply _ _ _ (ix1 o) ?_
  rw [Shape.rowMajor_val_two, Shape.rowMajor_val_one]
  show o.val = 0 * 1024 + o.val
  omega

theorem blkB_apply {I : Dev nD → RIn} (hI : Models m I) (c : Dev nD) (t : Fin cfg0.N) (o : Fin 1024) :
    blkB m c t (ix2 (0 : Fin 1) o) = (((I c).b o : ℝ) : EReal) := by
  obtain ⟨-, -, -, -, -, -, -, -, -, -, e0, e1⟩ := idx_facts t
  show V m c main_v0 (((cfg0.win 4).blk t).view.emb (ix2 (0 : Fin 1) o)) = _
  have hemb : ((cfg0.win 4).blk t).view.emb (ix2 (0 : Fin 1) o) = ix2 (0 : Fin 1) o := by
    funext a; apply Fin.ext
    match a with
    | ⟨0, _⟩ => show win0_4.index t (0 : Fin 2) * 1 + 1 * 0 = 0; omega
    | ⟨1, _⟩ => show win0_4.index t (1 : Fin 2) * 1024 + 1 * o.val = o.val; omega
  rw [hemb]
  refine (bias_entry c o).trans ?_
  exact (congrFun (hI c).2.2.2 _).trans (arrB_ix1 (I c) o)

end Cert.Attn

end
-- ==== Proof.StepDefs.lean ====
/-
  One grid step of the attention body as pure functions of the values it loads, named after what they are:
  the block of scores, the new running shift, the new total weight, the new weighted sum, and the output row block
  that the last step of a batch forms from the two.
-/
import proofs.«419783_j44547400794507_3_alg».proof.Proof.Gen.KernelIdeal.Skeleton

noncomputable section

namespace Cert.Attn

open Cert.KernelIdeal Cert.KernelIdeal.Gen Idealize.ShloMosaic

variable {F : FTy → Type} [FloatOps F]

/-- The block of scores: the rows of p against the projected rows of this step's block of q. -/
def scores (x0 : Vec F S1x2048x1024 .f32) (x1 : Vec F S1x512x1024 .f32) (x2 x3 : Vec F S1024x1024 .bf16) (x4 : Vec F S1x1024 .f32) :
    FVec F S2048x512 .f32 := k0_pay13 x0 x1 x2 x3 x4

/-- The running shift after the step: the larger of the old one and the block's row maximum. -/
def stepM (S : FVec F S2048x512 .f32) (mo : Vec F S2048x1 .f32) : FVec F S2048x1 .f32 := k0_pay6 S mo

/-- The total weight after the step: the old one rescaled to the new shift, plus the block's weights. -/
def stepL (S : FVec F S2048x512 .f32) (mo lo : Vec F S2048x1 .f32) : FVec F S2048x1 .f32 := k0_pay4 S mo mo lo

/-- The weighted sum of q's rows after the step: the old one rescaled, plus the block's weights times its rows. -/
def stepAcc (x1 : Vec F S1x512x1024 .f32) (S : FVec F S2048x512 .f32) (mo : Vec F S2048x1 .f32) (ao : Vec F S2048x1024 .f32) :
    FVec F S2048x1024 .f32 := k0_pay5 (k0_pay11 x1) S mo mo ao

/-- The output block: the weighted sum over the total weight, through the linear map and the bias, clamped at zero. -/
def finalOut (x2 : Vec F S1024x1024 .bf16) (x4 : Vec F S1x1024 .f32) (acc : Vec F S2048x1024 .f32) (l : Vec F S2048x1 .f32) :
    FVec F S1x2048x1024 .f32 := k0_pay7 (k0_pay12 x2) acc l x4

/-- The three values a batch's first step starts from: shift −∞, total weight 0, weighted sum 0. -/
abbrev m0 : FVec F S2048x1 .f32 := k0_pay8
abbrev l0 : FVec F S2048x1 .f32 := k0_pay9
abbrev a0 : FVec F S2048x1024 .f32 := k0_pay10

end Cert.Attn

end
-- ==== Proof.Pieces.lean ====
/-
  What each control case of the body leaves in the three carried scratch buffers and in the output block, read back
  from the stores its run found: always the step functions of StepDefs, applied to the loaded blocks and to what the
  scratch held before (the start values −∞, 0, 0 in the case that resets them).
-/
import proofs.«419783_j44547400794507_3_alg».proof.Proof.StepDefs
import proofs.«419783_j44547400794507_3_alg».proof.Proof.Gen.KernelIdeal.Frame
import Idealize.ShloMosaic.Lib.Pipeline.Value
import Idealize.ShloMosaic.Lib.Tactic

noncomputable section

namespace Cert.Attn.Pieces

open Cert.KernelIdeal Cert.KernelIdeal.Gen Cert.Attn Idealize.ShloMosaic Idealize.ShloMosaic.TcCoe Idealize.SL.Sem

variable {F : FTy → Type} [FloatOps F]

/-- The all-zero offset of a rank-2 block, as the constant function. -/
private theorem hz : (![0, 0] : Fin 2 → Nat) = fun _ => 0 := funext fun a => by fin_cases a <;> rfl

/-- The all-zero offset of a rank-3 block, as the constant function. -/
private theorem hz3 : (![0, 0, 0] : Fin 3 → Nat) = fun _ => 0 := funext fun a => by fin_cases a <;> rfl

/-! ## The resetting case: first step of a batch -/

theorem sout_A_0 (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1024 .f32) (harg10 : arg10.IsWhole) (hc0 : cond0_0 i) (hc1 : ¬cond0_1 i)
    (x0 : Vec F S1x2048x1024 .f32) (x1 : Vec F S1x512x1024 .f32) (x2 : Vec F S1024x1024 .bf16) (x3 : Vec F S1024x1024 .bf16) (x4 : Vec F S1x1024 .f32) :
    sout0_A_0 c i arg2 harg2 arg3 harg3 arg4 harg4 arg5 harg5 arg6 harg6 arg7 harg7 arg8 harg8 arg9 harg9 arg10 harg10 hc0 hc1 x0 x1 x2 x3 x4 = stepM (scores x0 x1 x2 x3 x4) (m0 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S2048x1) hz]
  simp only [View.readAt_eq_ld, harg2.read_unread, harg3.read_unread, harg4.read_unread, harg5.read_unread, harg6.read_unread,
    harg8.read_unread, harg9.read_unread, harg10.read_unread,
    View.ld_unit_zero (S := S2048x1) hz, View.ld_unit_zero (S := S2048x1024) hz, View.ld_unit_zero (S := S1024x1024) hz,
    View.ld_unit_zero (S := S1x1024) hz, View.ld_unit_zero (S := S1x2048x1024) hz3, View.ld_unit_zero (S := S1x512x1024) hz3,
    View.readCov_unit_zero (S := S2048x1) _ hz, View.readCov_unit_zero (S := S2048x1024) _ hz]
  rfl

theorem sout_A_1 (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1024 .f32) (harg10 : arg10.IsWhole) (hc0 : cond0_0 i) (hc1 : ¬cond0_1 i)
    (x0 : Vec F S1x2048x1024 .f32) (x1 : Vec F S1x512x1024 .f32) (x2 : Vec F S1024x1024 .bf16) (x3 : Vec F S1024x1024 .bf16) (x4 : Vec F S1x1024 .f32) :
    sout0_A_1 c i arg2 harg2 arg3 harg3 arg4 harg4 arg5 harg5 arg6 harg6 arg7 harg7 arg8 harg8 arg9 harg9 arg10 harg10 hc0 hc1 x0 x1 x2 x3 x4 = stepL (scores x0 x1 x2 x3 x4) (m0 (F := F)) (l0 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S2048x1) hz]
  simp only [View.readAt_eq_ld, harg2.read_unread, harg3.read_unread, harg4.read_unread, harg5.read_unread, harg6.read_unread,
    harg8.read_unread, harg9.read_unread, harg10.read_unread,
    View.ld_unit_zero (S := S2048x1) hz, View.ld_unit_zero (S := S2048x1024) hz, View.ld_unit_zero (S := S1024x1024) hz,
    View.ld_unit_zero (S := S1x1024) hz, View.ld_unit_zero (S := S1x2048x1024) hz3, View.ld_unit_zero (S := S1x512x1024) hz3,
    View.readCov_unit_zero (S := S2048x1) _ hz, View.readCov_unit_zero (S := S2048x1024) _ hz]
  rfl

theorem sout_A_2 (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1024 .f32) (harg10 : arg10.IsWhole) (hc0 : cond0_0 i) (hc1 : ¬cond0_1 i)
    (x0 : Vec F S1x2048x1024 .f32) (x1 : Vec F S1x512x1024 .f32) (x2 : Vec F S1024x1024 .bf16) (x3 : Vec F S1024x1024 .bf16) (x4 : Vec F S1x1024 .f32) :
    sout0_A_2 c i arg2 harg2 arg3 harg3 arg4 harg4 arg5 harg5 arg6 harg6 arg7 harg7 arg8 harg8 arg9 harg9 arg10 harg10 hc0 hc1 x0 x1 x2 x3 x4 = stepAcc x1 (scores x0 x1 x2 x3 x4) (m0 (F := F)) (a0 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S2048x1024) hz]
  simp only [View.readAt_eq_ld, harg2.read_unread, harg3.read_unread, harg4.read_unread, harg5.read_unread, harg6.read_unread,
    harg8.read_unread, harg9.read_unread, harg10.read_unread,
    View.ld_unit_zero (S := S2048x1) hz, View.ld_unit_zero (S := S2048x1024) hz, View.ld_unit_zero (S := S1024x1024) hz,
    View.ld_unit_zero (S := S1x1024) hz, View.ld_unit_zero (S := S1x2048x1024) hz3, View.ld_unit_zero (S := S1x512x1024) hz3,
    View.readCov_unit_zero (S := S2048x1) _ hz, View.readCov_unit_zero (S := S2048x1024) _ hz]
  rfl

/-! ## The middle case -/

theorem sout_B_0 (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1024 .f32) (harg10 : arg10.IsWhole) (hc0 : ¬cond0_0 i) (hc1 : ¬cond0_1 i)
    (x0 : Vec F S1x2048x1024 .f32) (x1 : Vec F S1x512x1024 .f32) (x2 : Vec F S1024x1024 .bf16) (x3 : Vec F S1024x1024 .bf16) (x4 : Vec F S1x1024 .f32) (xs0 : Vec F S2048x1 .f32) (xs1 : Vec F S2048x1 .f32) (xs2 : Vec F S2048x1024 .f32) :
    sout0_B_0 c i arg2 harg2 arg3 harg3 arg4 harg4 arg5 harg5 arg6 harg6 arg7 harg7 arg8 harg8 arg9 harg9 arg10 harg10 hc0 hc1 x0 x1 x2 x3 x4 xs0 xs1 xs2 = stepM (scores x0 x1 x2 x3 x4) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread,
    harg8.read_unread, harg9.read_unread, harg10.read_unread,
    View.ld_unit_zero (S := S2048x1) hz, View.ld_unit_zero (S := S2048x1024) hz, View.ld_unit_zero (S := S1024x1024) hz,
    View.ld_unit_zero (S := S1x1024) hz, View.ld_unit_zero (S := S1x2048x1024) hz3, View.ld_unit_zero (S := S1x512x1024) hz3]
  rfl

theorem sout_B_1 (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1024 .f32) (harg10 : arg10.IsWhole) (hc0 : ¬cond0_0 i) (hc1 : ¬cond0_1 i)
    (x0 : Vec F S1x2048x1024 .f32) (x1 : Vec F S1x512x1024 .f32) (x2 : Vec F S1024x1024 .bf16) (x3 : Vec F S1024x1024 .bf16) (x4 : Vec F S1x1024 .f32) (xs0 : Vec F S2048x1 .f32) (xs1 : Vec F S2048x1 .f32) (xs2 : Vec F S2048x1024 .f32) :
    sout0_B_1 c i arg2 harg2 arg3 harg3 arg4 harg4 arg5 harg5 arg6 harg6 arg7 harg7 arg8 harg8 arg9 harg9 arg10 harg10 hc0 hc1 x0 x1 x2 x3 x4 xs0 xs1 xs2 = stepL (scores x0 x1 x2 x3 x4) xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread,
    harg8.read_unread, harg9.read_unread, harg10.read_unread,
    View.ld_unit_zero (S := S2048x1) hz, View.ld_unit_zero (S := S2048x1024) hz, View.ld_unit_zero (S := S1024x1024) hz,
    View.ld_unit_zero (S := S1x1024) hz, View.ld_unit_zero (S := S1x2048x1024) hz3, View.ld_unit_zero (S := S1x512x1024) hz3]
  rfl

theorem sout_B_2 (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1024 .f32) (harg10 : arg10.IsWhole) (hc0 : ¬cond0_0 i) (hc1 : ¬cond0_1 i)
    (x0 : Vec F S1x2048x1024 .f32) (x1 : Vec F S1x512x1024 .f32) (x2 : Vec F S1024x1024 .bf16) (x3 : Vec F S1024x1024 .bf16) (x4 : Vec F S1x1024 .f32) (xs0 : Vec F S2048x1 .f32) (xs1 : Vec F S2048x1 .f32) (xs2 : Vec F S2048x1024 .f32) :
    sout0_B_2 c i arg2 harg2 arg3 harg3 arg4 harg4 arg5 harg5 arg6 harg6 arg7 harg7 arg8 harg8 arg9 harg9 arg10 harg10 hc0 hc1 x0 x1 x2 x3 x4 xs0 xs1 xs2 = stepAcc x1 (scores x0 x1 x2 x3 x4) xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread,
    harg8.read_unread, harg9.read_unread, harg10.read_unread,
    View.ld_unit_zero (S := S2048x1) hz, View.ld_unit_zero (S := S2048x1024) hz, View.ld_unit_zero (S := S1024x1024) hz,
    View.ld_unit_zero (S := S1x1024) hz, View.ld_unit_zero (S := S1x2048x1024) hz3, View.ld_unit_zero (S := S1x512x1024) hz3]
  rfl

/-! ## The last step of a batch, which also forms the output block -/

theorem sout_C_0 (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1024 .f32) (harg10 : arg10.IsWhole) (hc0 : ¬cond0_0 i) (hc1 : cond0_1 i)
    (x0 : Vec F S1x2048x1024 .f32) (x1 : Vec F S1x512x1024 .f32) (x2 : Vec F S1024x1024 .bf16) (x3 : Vec F S1024x1024 .bf16) (x4 : Vec F S1x1024 .f32) (xs0 : Vec F S2048x1 .f32) (xs1 : Vec F S2048x1 .f32) (xs2 : Vec F S2048x1024 .f32) :
    sout0_C_0 c i arg2 harg2 arg3 harg3 arg4 harg4 arg5 harg5 arg6 harg6 arg7 harg7 arg8 harg8 arg9 harg9 arg10 harg10 hc0 hc1 x0 x1 x2 x3 x4 xs0 xs1 xs2 = stepM (scores x0 x1 x2 x3 x4) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread,
    harg8.read_unread, harg9.read_unread, harg10.read_unread,
    View.ld_unit_zero (S := S2048x1) hz, View.ld_unit_zero (S := S2048x1024) hz, View.ld_unit_zero (S := S1024x1024) hz,
    View.ld_unit_zero (S := S1x1024) hz, View.ld_unit_zero (S := S1x2048x1024) hz3, View.ld_unit_zero (S := S1x512x1024) hz3]
  rfl

theorem sout_C_1 (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1024 .f32) (harg10 : arg10.IsWhole) (hc0 : ¬cond0_0 i) (hc1 : cond0_1 i)
    (x0 : Vec F S1x2048x1024 .f32) (x1 : Vec F S1x512x1024 .f32) (x2 : Vec F S1024x1024 .bf16) (x3 : Vec F S1024x1024 .bf16) (x4 : Vec F S1x1024 .f32) (xs0 : Vec F S2048x1 .f32) (xs1 : Vec F S2048x1 .f32) (xs2 : Vec F S2048x1024 .f32) :
    sout0_C_1 c i arg2 harg2 arg3 harg3 arg4 harg4 arg5 harg5 arg6 harg6 arg7 harg7 arg8 harg8 arg9 harg9 arg10 harg10 hc0 hc1 x0 x1 x2 x3 x4 xs0 xs1 xs2 = stepL (scores x0 x1 x2 x3 x4) xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread,
    harg8.read_unread, harg9.read_unread, harg10.read_unread,
    View.ld_unit_zero (S := S2048x1) hz, View.ld_unit_zero (S := S2048x1024) hz, View.ld_unit_zero (S := S1024x1024) hz,
    View.ld_unit_zero (S := S1x1024) hz, View.ld_unit_zero (S := S1x2048x1024) hz3, View.ld_unit_zero (S := S1x512x1024) hz3]
  rfl

theorem sout_C_2 (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1024 .f32) (harg10 : arg10.IsWhole) (hc0 : ¬cond0_0 i) (hc1 : cond0_1 i)
    (x0 : Vec F S1x2048x1024 .f32) (x1 : Vec F S1x512x1024 .f32) (x2 : Vec F S1024x1024 .bf16) (x3 : Vec F S1024x1024 .bf16) (x4 : Vec F S1x1024 .f32) (xs0 : Vec F S2048x1 .f32) (xs1 : Vec F S2048x1 .f32) (xs2 : Vec F S2048x1024 .f32) :
    sout0_C_2 c i arg2 harg2 arg3 harg3 arg4 harg4 arg5 harg5 arg6 harg6 arg7 harg7 arg8 harg8 arg9 harg9 arg10 harg10 hc0 hc1 x0 x1 x2 x3 x4 xs0 xs1 xs2 = stepAcc x1 (scores x0 x1 x2 x3 x4) xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread,
    harg8.read_unread, harg9.read_unread, harg10.read_unread,
    View.ld_unit_zero (S := S2048x1) hz, View.ld_unit_zero (S := S2048x1024) hz, View.ld_unit_zero (S := S1024x1024) hz,
    View.ld_unit_zero (S := S1x1024) hz, View.ld_unit_zero (S := S1x2048x1024) hz3, View.ld_unit_zero (S := S1x512x1024) hz3]
  rfl

theorem out_C_5 (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1024 .f32) (harg10 : arg10.IsWhole) (hc0 : ¬cond0_0 i) (hc1 : cond0_1 i)
    (x0 : Vec F S1x2048x1024 .f32) (x1 : Vec F S1x512x1024 .f32) (x2 : Vec F S1024x1024 .bf16) (x3 : Vec F S1024x1024 .bf16) (x4 : Vec F S1x1024 .f32) (xs0 : Vec F S2048x1 .f32) (xs1 : Vec F S2048x1 .f32) (xs2 : Vec F S2048x1024 .f32) :
    out0_C_5 c i arg2 harg2 arg3 harg3 arg4 harg4 arg5 harg5 arg6 harg6 arg7 harg7 arg8 harg8 arg9 harg9 arg10 harg10 hc0 hc1 x0 x1 x2 x3 x4 xs0 xs1 xs2 = finalOut x2 x4 (stepAcc x1 (scores x0 x1 x2 x3 x4) xs0 xs2) (stepL (scores x0 x1 x2 x3 x4) xs0 xs1) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread,
    harg8.read_unread, harg9.read_unread, harg10.read_unread,
    View.ld_unit_zero (S := S2048x1) hz, View.ld_unit_zero (S := S2048x1024) hz, View.ld_unit_zero (S := S1024x1024) hz,
    View.ld_unit_zero (S := S1x1024) hz, View.ld_unit_zero (S := S1x2048x1024) hz3, View.ld_unit_zero (S := S1x512x1024) hz3,
    View.readCov_unit_zero (S := S2048x1) _ hz, View.readCov_unit_zero (S := S2048x1024) _ hz]
  rfl

end Cert.Attn.Pieces

end
-- ==== Proof.ScoresValue.lean ====
/-
  The block of scores read at an index, over blocks that hold real numbers.

  Each operand is split into itself and a remainder x − x, and three products are added; over finite
  values the remainder is zero and the two extra products vanish, so an entry is the plain dot product of a row of p
  with a projected row of q (itself a dot product with a row of w, plus the bias).
-/
import proofs.«419783_j44547400794507_3_alg».proof.Proof.StepDefs
import proofs.«419783_j44547400794507_3_alg».proof.Proof.LibSoftmaxReal
import Idealize.ShloMosaic.Lib.ValueIdx
import Idealize.ShloMosaic.Lib.ValueLayout
import Idealize.ShloMosaic.Lib.Pipeline.Value
import Idealize.ShloMosaic.PureOps.Ideal.Laws

noncomputable section

namespace Cert.Attn

open Cert.KernelIdeal Cert.KernelIdeal.Gen Idealize.ShloMosaic Idealize.ShloMosaic.ValueIdx Finset Cert.AttnReal

private theorem lhs_key_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
private theorem lhs_key_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
private theorem rhs_key_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
private theorem rhs_key_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- A product of a 512-row block with the transpose of a square matrix, into the zero block: entry (a, b) is the dot product of row a with row b. -/
theorem key_matmul_apply (lhs : FVec Ideal S512x1024 .bf16) (rhs : FVec Ideal S1024x1024 .bf16) (a : Fin 512) (b : Fin 1024) :
    matmul dot_S512x1024_S1024x1024_S512x1024_1_1_0_0_n_n none lhs rhs (constant (F := Ideal) S512x1024 .f32 0x00000000#32) (ix2 a b)
      = ∑ k : Fin 1024, lhs (ix2 a k) * rhs (ix2 b k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 a b) ((contrEquiv1 dot_S512x1024_S1024x1024_S512x1024_1_1_0_0_n_n 1024 rfl rfl).symm k) = ix2 a k := funext fun c => Fin.ext (by
    match c with
    | ⟨0, _⟩ => exact lhs_key_0 _ _
    | ⟨1, _⟩ => exact (lhs_key_1 _ _).trans hk)
  have er : dot_S512x1024_S1024x1024_S512x1024_1_1_0_0_n_n.rhsIdx (ix2 a b) ((contrEquiv1 dot_S512x1024_S1024x1024_S512x1024_1_1_0_0_n_n 1024 rfl rfl).symm k) = ix2 b k := funext fun c => Fin.ext (by
    match c with
    | ⟨0, _⟩ => exact rhs_key_0 _ _
    | ⟨1, _⟩ => exact (rhs_key_1 _ _).trans hk)
  rw [el, er]

private theorem lhs_sc_0 (i : S2048x512.Idx) (q : dot_S2048x1024_S512x1024_S2048x512_1_1_0_0_n_n.contr.Idx) :
    (dot_S2048x1024_S512x1024_S2048x512_1_1_0_0_n_n.lhsIdx i q 0).val = (i 0).val := by
  unfold DotDims.lhsIdx
  rw [dif_neg (show ¬(0 : Fin S2048x1024.rank) ∈ dot_S2048x1024_S512x1024_S2048x512_1_1_0_0_n_n.lhsBatch by decide), dif_pos (show (0 : Fin S2048x1024.rank) ∈ dot_S2048x1024_S512x1024_S2048x512_1_1_0_0_n_n.lhsNonContracting by decide)]
  rfl
private theorem lhs_sc_1 (i : S2048x512.Idx) (q : dot_S2048x1024_S512x1024_S2048x512_1_1_0_0_n_n.contr.Idx) :
    (dot_S2048x1024_S512x1024_S2048x512_1_1_0_0_n_n.lhsIdx i q 1).val = (q ⟨0, by decide⟩).val :=
  dot_S2048x1024_S512x1024_S2048x512_1_1_0_0_n_n.lhsIdx_val_of_single rfl i q
private theorem rhs_sc_0 (i : S2048x512.Idx) (q : dot_S2048x1024_S512x1024_S2048x512_1_1_0_0_n_n.contr.Idx) :
    (dot_S2048x1024_S512x1024_S2048x512_1_1_0_0_n_n.rhsIdx i q 0).val = (i 1).val := by
  unfold DotDims.rhsIdx
  rw [dif_neg (show ¬(0 : Fin S512x1024.rank) ∈ dot_S2048x1024_S512x1024_S2048x512_1_1_0_0_n_n.rhsBatch by decide), dif_pos (show (0 : Fin S512x1024.rank) ∈ dot_S2048x1024_S512x1024_S2048x512_1_1_0_0_n_n.rhsNonContracting by decide)]
  rfl
private theorem rhs_sc_1 (i : S2048x512.Idx) (q : dot_S2048x1024_S512x1024_S2048x512_1_1_0_0_n_n.contr.Idx) :
    (dot_S2048x1024_S512x1024_S2048x512_1_1_0_0_n_n.rhsIdx i q 1).val = (q ⟨0, by decide⟩).val :=
  dot_S2048x1024_S512x1024_S2048x512_1_1_0_0_n_n.rhsIdx_val_of_single rfl i q

/-- A product of the 2048 rows with the transpose of a 512-row block, into the zero block: entry (a, b) is the dot product of row a with row b. -/
theorem score_matmul_apply (lhs : FVec Ideal S2048x1024 .bf16) (rhs : FVec Ideal S512x1024 .bf16) (a : Fin 2048) (b : Fin 512) :
    matmul dot_S2048x1024_S512x1024_S2048x512_1_1_0_0_n_n none lhs rhs (constant (F := Ideal) S2048x512 .f32 0x00000000#32) (ix2 a b)
      = ∑ k : Fin 1024, lhs (ix2 a k) * rhs (ix2 b k) := by
  simp only [matmul]
  rw [Ideal.matmul_constant_zero_apply, ← Equiv.sum_comp (contrEquiv1 dot_S2048x1024_S512x1024_S2048x512_1_1_0_0_n_n 1024 rfl rfl).symm]
  refine Finset.sum_congr rfl fun k _ => ?_
  have hk := contrEquiv1_symm_val dot_S2048x1024_S512x1024_S2048x512_1_1_0_0_n_n 1024 rfl rfl k
  have el : dot_S2048x1024_S512x1024_S2048x512_1_1_0_0_n_n.lhsIdx (ix2 a b) ((contrEquiv1 dot_S2048x1024_S512x1024_S2048x512_1_1_0_0_n_n 1024 rfl rfl).symm k) = ix2 a k := funext fun c => Fin.ext (by
    match c with
    | ⟨0, _⟩ => exact lhs_sc_0 _ _
    | ⟨1, _⟩ => exact (lhs_sc_1 _ _).trans hk)
  have er : dot_S2048x1024_S512x1024_S2048x512_1_1_0_0_n_n.rhsIdx (ix2 a b) ((contrEquiv1 dot_S2048x1024_S512x1024_S2048x512_1_1_0_0_n_n 1024 rfl rfl).symm k) = ix2 b k := funext fun c => Fin.ext (by
    match c with
    | ⟨0, _⟩ => exact rhs_sc_0 _ _
    | ⟨1, _⟩ => exact (rhs_sc_1 _ _).trans hk)
  rw [el, er]

/-- A real number minus itself, in the extended reals, is zero. -/
private theorem coe_sub_self (a : ℝ) : ((a : ℝ) : EReal) - ((a : ℝ) : EReal) = 0 := by
  rw [← EReal.coe_sub, sub_self, EReal.coe_zero]

/-- A dot product of real rows, in the extended reals, is the coercion of the real dot product. -/
private theorem sum_coe_mul (f g : Fin 1024 → ℝ) :
    ∑ k : Fin 1024, ((f k : ℝ) : EReal) * ((g k : ℝ) : EReal) = ((∑ k : Fin 1024, f k * g k : ℝ) : EReal) := by
  rw [coe_sum]
  exact Finset.sum_congr rfl fun k _ => (EReal.coe_mul _ _).symm

/-- The three-pass product behind the projected rows: a real block q, its remainder q − q, a real matrix w and a
    zero remainder w'. The passes q·w' and (q − q)·w vanish, and with the bias row added an entry is
    ∑ k, q j k · w o k + b o. -/
private theorem key_split (q bb : FVec Ideal S512x1024 .f32) (w w' : FVec Ideal S1024x1024 .bf16)
    (hlt : FTy.bits .bf16 < FTy.bits .f32)
    (qr : Fin 512 → Fin 1024 → ℝ) (wr : Fin 1024 → Fin 1024 → ℝ) (br : Fin 1024 → ℝ)
    (hq : ∀ (j : Fin 512) (h : Fin 1024), q (ix2 j h) = ((qr j h : ℝ) : EReal))
    (hw : ∀ (o h : Fin 1024), w (ix2 o h) = ((wr o h : ℝ) : EReal))
    (hw' : ∀ (o h : Fin 1024), w' (ix2 o h) = 0)
    (hb : ∀ (j : Fin 512) (o : Fin 1024), bb (ix2 j o) = ((br o : ℝ) : EReal))
    (j : Fin 512) (o : Fin 1024) :
    addf (addf (addf
        (matmul dot_S512x1024_S1024x1024_S512x1024_1_1_0_0_n_n none (truncf .bf16 q hlt) w (constant (F := Ideal) S512x1024 .f32 0x00000000#32))
        (matmul dot_S512x1024_S1024x1024_S512x1024_1_1_0_0_n_n none (truncf .bf16 q hlt) w' (constant (F := Ideal) S512x1024 .f32 0x00000000#32)))
        (matmul dot_S512x1024_S1024x1024_S512x1024_1_1_0_0_n_n none (truncf .bf16 (subf q q) hlt) w (constant (F := Ideal) S512x1024 .f32 0x00000000#32)))
        bb (ix2 j o)
      = ((∑ k : Fin 1024, qr j k * wr o k + br o : ℝ) : EReal) := by
  rw [addf_apply, addf_apply, addf_apply, key_matmul_apply, key_matmul_apply, key_matmul_apply, hb]
  have e2 : ∑ k : Fin 1024, (truncf .bf16 q hlt : FVec Ideal S512x1024 .bf16) (ix2 j k) * w' (ix2 o k) = 0 :=
    Finset.sum_eq_zero fun k _ => by rw [hw', mul_zero]
  have e3 : ∑ k : Fin 1024, (truncf .bf16 (subf q q) hlt : FVec Ideal S512x1024 .bf16) (ix2 j k) * w (ix2 o k) = 0 :=
    Finset.sum_eq_zero fun k _ => by rw [truncf_apply, subf_apply, hq, coe_sub_self, zero_mul]
  have e1 : ∑ k : Fin 1024, (truncf .bf16 q hlt : FVec Ideal S512x1024 .bf16) (ix2 j k) * w (ix2 o k)
      = ((∑ k : Fin 1024, qr j k * wr o k : ℝ) : EReal) := by
    rw [← sum_coe_mul]
    exact Finset.sum_congr rfl fun k _ => by rw [truncf_apply, hq, hw]
  rw [e1, e2, e3, add_zero, add_zero, EReal.coe_add]

/-- The three-pass product behind the scores: real rows p with remainder p − p against real rows κ with remainder
    κ − κ. The passes p·(κ − κ) and (p − p)·κ vanish, and an entry is ∑ k, p r k · κ j k. -/
private theorem score_split (p : FVec Ideal S2048x1024 .f32) (κ : FVec Ideal S512x1024 .f32)
    (hlt : FTy.bits .bf16 < FTy.bits .f32)
    (pr : Fin 2048 → Fin 1024 → ℝ) (κr : Fin 512 → Fin 1024 → ℝ)
    (hp : ∀ (r : Fin 2048) (h : Fin 1024), p (ix2 r h) = ((pr r h : ℝ) : EReal))
    (hκ : ∀ (j : Fin 512) (h : Fin 1024), κ (ix2 j h) = ((κr j h : ℝ) : EReal))
    (r : Fin 2048) (j : Fin 512) :
    addf (addf
        (matmul dot_S2048x1024_S512x1024_S2048x512_1_1_0_0_n_n none (truncf .bf16 p hlt) (truncf .bf16 κ hlt) (constant (F := Ideal) S2048x512 .f32 0x00000000#32))
        (matmul dot_S2048x1024_S512x1024_S2048x512_1_1_0_0_n_n none (truncf .bf16 p hlt) (truncf .bf16 (subf κ κ) hlt) (constant (F := Ideal) S2048x512 .f32 0x00000000#32)))
        (matmul dot_S2048x1024_S512x1024_S2048x512_1_1_0_0_n_n none (truncf .bf16 (subf p p) hlt) (truncf .bf16 κ hlt) (constant (F := Ideal) S2048x512 .f32 0x00000000#32))
        (ix2 r j)
      = ((∑ k : Fin 1024, pr r k * κr j k : ℝ) : EReal) := by
  rw [addf_apply, addf_apply, score_matmul_apply, score_matmul_apply, score_matmul_apply]
  have e2 : ∑ k : Fin 1024, (truncf .bf16 p hlt : FVec Ideal S2048x1024 .bf16) (ix2 r k)
      * (truncf .bf16 (subf κ κ) hlt : FVec Ideal S512x1024 .bf16) (ix2 j k) = 0 :=
    Finset.sum_eq_zero fun k _ => by rw [truncf_apply, truncf_apply, subf_apply, hκ, coe_sub_self, mul_zero]
  have e3 : ∑ k : Fin 1024, (truncf .bf16 (subf p p) hlt : FVec Ideal S2048x1024 .bf16) (ix2 r k)
      * (truncf .bf16 κ hlt : FVec Ideal S512x1024 .bf16) (ix2 j k) = 0 :=
    Finset.sum_eq_zero fun k _ => by rw [truncf_apply, subf_apply, hp, coe_sub_self, zero_mul]
  have e1 : ∑ k : Fin 1024, (truncf .bf16 p hlt : FVec Ideal S2048x1024 .bf16) (ix2 r k)
      * (truncf .bf16 κ hlt : FVec Ideal S512x1024 .bf16) (ix2 j k)
      = ((∑ k : Fin 1024, pr r k * κr j k : ℝ) : EReal) := by
    rw [← sum_coe_mul]
    exact Finset.sum_congr rfl fun k _ => by rw [truncf_apply, truncf_apply, hp, hκ]
  rw [e1, e2, e3, add_zero, add_zero]

/-- An entry of the block of scores. -/
theorem scores_apply (x0 : FVec Ideal S1x2048x1024 .f32) (x1 : FVec Ideal S1x512x1024 .f32) (x2 x3 : FVec Ideal S1024x1024 .bf16)
    (x4 : FVec Ideal S1x1024 .f32)
    (pr : Fin 2048 → Fin 1024 → ℝ) (qr : Fin 512 → Fin 1024 → ℝ) (wr : Fin 1024 → Fin 1024 → ℝ) (br : Fin 1024 → ℝ)
    (h0 : ∀ (r : Fin 2048) (h : Fin 1024), x0 (ix3 (0 : Fin 1) r h) = ((pr r h : ℝ) : EReal))
    (h1 : ∀ (j : Fin 512) (h : Fin 1024), x1 (ix3 (0 : Fin 1) j h) = ((qr j h : ℝ) : EReal))
    (h2 : ∀ (o h : Fin 1024), x2 (ix2 o h) = ((wr o h : ℝ) : EReal))
    (h3 : ∀ (o h : Fin 1024), x3 (ix2 o h) = 0)
    (h4 : ∀ (o : Fin 1024), x4 (ix2 (0 : Fin 1) o) = ((br o : ℝ) : EReal))
    (r : Fin 2048) (j : Fin 512) :
    scores (F := Ideal) x0 x1 x2 x3 x4 (ix2 r j)
      = ((∑ h : Fin 1024, pr r h * (∑ h' : Fin 1024, qr j h' * wr h h' + br h) : ℝ) : EReal) := by
  have hp : ∀ (r : Fin 2048) (h : Fin 1024),
      shapeCast S2048x1024 x0 shapeCasts_S1x2048x1024_S2048x1024 (ix2 r h) = ((pr r h : ℝ) : EReal) := fun r h => by
    rw [shapeCast_1ab_ab_apply]; exact h0 r h
  have hq : ∀ (j : Fin 512) (h : Fin 1024), k0_pay11 (F := Ideal) x1 (ix2 j h) = ((qr j h : ℝ) : EReal) := fun j h => by
    unfold k0_pay11
    rw [shapeCast_1ab_ab_apply]; exact h1 j h
  have hw : ∀ (o h : Fin 1024), k0_pay12 (F := Ideal) x2 (ix2 o h) = ((wr o h : ℝ) : EReal) := fun o h => by
    unfold k0_pay12
    rw [shapeCast_self]; exact h2 o h
  have hw' : ∀ (o h : Fin 1024), shapeCast S1024x1024 x3 shapeCasts_S1024x1024_S1024x1024 (ix2 o h) = 0 := fun o h => by
    rw [shapeCast_self]; exact h3 o h
  have hb : ∀ (j : Fin 512) (o : Fin 1024),
      broadcastTo S512x1024 (shapeCast S1x1024 x4 shapeCasts_S1x1024_S1x1024) broadcasts_S1x1024_S512x1024 (ix2 j o)
        = ((br o : ℝ) : EReal) := fun j o => by
    rw [broadcastTo_1b_ab_apply, shapeCast_self]; exact h4 o
  unfold scores k0_pay13
  exact score_split _ _ bitsLt_bf16_f32 pr (fun j h => ∑ h', qr j h' * wr h h' + br h) hp
    (fun j h => key_split _ _ _ _ bitsLt_bf16_f32 qr wr br hq hw hw' hb j h) r j

end Cert.Attn

end
-- ==== Proof.FinalValue.lean ====
/-
  The output block read at an index, over a state that holds real numbers: an entry is the row's weighted sums divided
  by its total weight, contracted with a row of w, plus the bias, clamped at zero.
-/
import proofs.«419783_j44547400794507_3_alg».proof.Proof.StepDefs
import proofs.«419783_j44547400794507_3_alg».proof.Proof.LibSoftmaxReal
import Idealize.ShloMosaic.Lib.ValueIdx
import Idealize.ShloMosaic.Lib.ValueLayout
import Idealize.ShloMosaic.Lib.Pipeline.Value
import Idealize.ShloMosaic.PureOps.Ideal.Laws

noncomputable section

namespace Cert.Attn

open Cert.KernelIdeal Cert.KernelIdeal.Gen Idealize.ShloMosaic Idealize.ShloMosaic.ValueIdx Finset Cert.AttnReal

/-- A column `[a, 1]` broadcast to `[a, b]` reads, at `(p, c)`, the column's entry in row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The coercion of the larger of two reals is the larger of the coercions. -/
private theorem coe_max' (x y : ℝ) : max (x : EReal) (y : EReal) = ((max x y : ℝ) : EReal) :=
  (EReal.coe_strictMono.monotone.map_max).symm

/-- The quotient of two real values, the divisor not zero, is the real quotient. -/
private theorem div_coe_coe (x y : ℝ) (hy : y ≠ 0) : Ideal.div (x : EReal) (y : EReal) = ((x / y : ℝ) : EReal) := by
  rw [Ideal.div_coe hy, ← EReal.coe_mul, ← div_eq_mul_one_div]

/-- The contraction's dimension numbers: both operands are contracted along their second axis. -/
private abbrev D := dot_S2048x1024_S1024x1024_S2048x1024_1_1_0_0_n_n

/-- Where the contraction reads its operands for the output entry `i` at the contraction position `q`: the left
    operand at `(i 0, q)`, the right operand at `(i 1, q)`, one coordinate at a time. -/
private theorem lhs_0 (i : S2048x1024.Idx) (q : D.contr.Idx) : (D.lhsIdx i q 0).val = (i 0).val := by
  unfold DotDims.lhsIdx
  rw [dif_neg (show ¬(0 : Fin S2048x1024.rank) ∈ D.lhsBatch by decide),
    dif_pos (show (0 : Fin S2048x1024.rank) ∈ D.lhsNonContracting by decide)]
  rfl
private theorem lhs_1 (i : S2048x1024.Idx) (q : D.contr.Idx) : (D.lhsIdx i q 1).val = (q ⟨0, by decide⟩).val :=
  D.lhsIdx_val_of_single rfl i q
private theorem rhs_0 (i : S2048x1024.Idx) (q : D.contr.Idx) : (D.rhsIdx i q 0).val = (i 1).val := by
  unfold DotDims.rhsIdx
  rw [dif_neg (show ¬(0 : Fin S1024x1024.rank) ∈ D.rhsBatch by decide),
    dif_pos (show (0 : Fin S1024x1024.rank) ∈ D.rhsNonContracting by decide)]
  rfl
private theorem rhs_1 (i : S2048x1024.Idx) (q : D.contr.Idx) : (D.rhsIdx i q 1).val = (q ⟨0, by decide⟩).val :=
  D.rhsIdx_val_of_single rfl i q

/-- The contraction into the zero accumulator: entry `(r, o)` is the sum over `h` of the left operand's `(r, h)` times
    the right operand's `(o, h)`. -/
private theorem dot_apply (X : FVec Ideal S2048x1024 .bf16) (W : FVec Ideal S1024x1024 .bf16) (r : Fin 2048) (o : Fin 1024) :
    matmul D none X W (constant S2048x1024 .f32 0x00000000#32) (ix2 r o) = ∑ h : Fin 1024, X (ix2 r h) * W (ix2 o h) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 r o) ((contrEquiv1 D 1024 rfl rfl).symm k) = ix2 r k := funext fun a => Fin.ext (by
    match a with
    | ⟨0, _⟩ => exact lhs_0 _ _
    | ⟨1, _⟩ => exact (lhs_1 _ _).trans hk)
  have er : D.rhsIdx (ix2 r o) ((contrEquiv1 D 1024 rfl rfl).symm k) = ix2 o k := funext fun a => Fin.ext (by
    match a with
    | ⟨0, _⟩ => exact rhs_0 _ _
    | ⟨1, _⟩ => exact (rhs_1 _ _).trans hk)
  rw [el, er]

/-- An entry of the output block. -/
theorem final_apply (x2 : FVec Ideal S1024x1024 .bf16) (x4 : FVec Ideal S1x1024 .f32) (acc : FVec Ideal S2048x1024 .f32)
    (l : FVec Ideal S2048x1 .f32)
    (wr : Fin 1024 → Fin 1024 → ℝ) (br : Fin 1024 → ℝ) (A : Fin 2048 → Fin 1024 → ℝ) (L : Fin 2048 → ℝ) (hL : ∀ r, L r ≠ 0)
    (h2 : ∀ (o h : Fin 1024), x2 (ix2 o h) = ((wr o h : ℝ) : EReal))
    (h4 : ∀ (o : Fin 1024), x4 (ix2 (0 : Fin 1) o) = ((br o : ℝ) : EReal))
    (ha : ∀ (r : Fin 2048) (h : Fin 1024), acc (ix2 r h) = ((A r h : ℝ) : EReal))
    (hl : ∀ (r : Fin 2048), l (ix2 r (0 : Fin 1)) = ((L r : ℝ) : EReal))
    (r : Fin 2048) (o : Fin 1024) :
    finalOut (F := Ideal) x2 x4 acc l (ix3 (0 : Fin 1) r o)
      = ((max (∑ h : Fin 1024, A r h / L r * wr o h + br o) 0 : ℝ) : EReal) := by
  simp only [finalOut, k0_pay7, k0_pay12, shapeCast_self]
  have hsum : ∀ h : Fin 1024,
      truncf .bf16 (divf acc (broadcastTo S2048x1024 l broadcasts_S2048x1_S2048x1024)) bitsLt_bf16_f32 (ix2 r h)
        * x2 (ix2 o h) = ((A r h / L r * wr o h : ℝ) : EReal) := by
    intro h
    rw [truncf_apply, divf_apply, broadcastTo_a1_ab_apply, ha, hl, div_coe_coe _ _ (hL r), h2, ← EReal.coe_mul]
  have hz : (FloatOps.ofBits (F := Ideal) .f32 0x00000000#32) = ((0 : ℝ) : EReal) := Ideal.ofBits_zero_f32
  rw [shapeCast_ab_1ab_apply, maximumf_apply, addf_apply, broadcast_apply, dot_apply, broadcastTo_1b_ab_apply, h4,
    Finset.sum_congr rfl (fun h _ => hsum h), ← coe_sum, ← EReal.coe_add, hz, coe_max']

end Cert.Attn

end
-- ==== Proof.StepEntries.lean ====
/-
  The three step functions read at an index, as formulas over the extended reals.

  With m' r the new shift of row r, namely the larger of the old shift and the largest of the block's 512 scores of
  the row:
    new total weight  r   = e^(m r − m' r) · l r   + ∑ j, e^(s r j − m' r)
    new weighted sum  r h = e^(m r − m' r) · a r h + ∑ j, e^(s r j − m' r) · v j h
  where v is the block of q's rows. The row maximum is a fold of max from −∞ over the row; the row sum a plain sum;
  the product of the block of weights with the block of rows a sum over the block's 512 columns. The start values of
  a batch are −∞, 0 and 0.
-/
import proofs.«419783_j44547400794507_3_alg».proof.Proof.StepDefs
import Idealize.ShloMosaic.Lib.ValueIdx
import Idealize.ShloMosaic.Lib.ValueLayout
import Idealize.ShloMosaic.Lib.Pipeline.Value
import Idealize.ShloMosaic.PureOps.Ideal.Laws

noncomputable section

namespace Cert.Attn

open Cert.KernelIdeal Cert.KernelIdeal.Gen Idealize.ShloMosaic Idealize.ShloMosaic.ValueIdx Finset

section Layout
variable {α : Type}

/-- A vector of length a viewed as a column [a, 1] reads, at (r, u), the vector at r. -/
private theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [a, 1] repeated along b columns reads, at (r, c), the column at (r, 0). -/
private theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-- The word of the start of a maximum denotes −∞. -/
private theorem negInf_eq_bot : Ideal.ofBits .f32 0xFF800000#32 = (⊥ : EReal) := by
  simp [Ideal.ofBits, Ideal.ieee]

/-- The largest of a row's 512 scores of the block, from −∞. -/
def rowMax (S : FVec Ideal S2048x512 .f32) (r : Fin 2048) : EReal :=
  (Finset.univ : Finset (Fin 512)).fold max (⊥ : EReal) (fun j => S (ix2 r j))

/-- The index of column j of row r, as the reduction over the second axis inserts it. -/
private theorem lift_row (h : S2048x512.Reduces [1] S2048) (r : Fin 2048) (j : Fin 512) : h.lift (ix1 r) j = ix2 r j :=
  funext fun c => Fin.ext (match c with | ⟨0, _⟩ => rfl | ⟨1, _⟩ => rfl)

/-- The maximum over the second axis of a block, read at row r: the fold of max from −∞ over the row. -/
private theorem rowMax_read (X : FVec Ideal S2048x512 .f32) (h : S2048x512.Reduces [1] S2048) (hφ : FKind.Formats .f32)
    (hacc : (0xFF800000#32 : BitVec 32) = 0xFF800000#32) (r : Fin 2048) :
    multiReduction (F := Ideal) .maximumf [1] S2048 X 0xFF800000#32 h hφ hacc (ix1 r) = rowMax X r := by
  refine (Ideal.multiReduction_maximumf_single X 0xFF800000#32 h hφ hacc (ix1 r)).trans ?_
  show (Finset.univ : Finset (Fin 512)).fold max (Ideal.ofBits .f32 0xFF800000#32) (fun j : Fin 512 => X (h.lift (ix1 r) j))
    = (Finset.univ : Finset (Fin 512)).fold max (⊥ : EReal) (fun j => X (ix2 r j))
  rw [negInf_eq_bot, funext fun j => congrArg X (lift_row h r j)]

/-- The sum over the second axis of a block, read at row r: the sum over the row. -/
private theorem rowSum_read (X : FVec Ideal S2048x512 .f32) (h : S2048x512.Reduces [1] S2048) (hφ : FKind.Formats .f32)
    (hacc : (0x00000000#32 : BitVec 32) = 0x00000000#32) (r : Fin 2048) :
    multiReduction (F := Ideal) .add [1] S2048 X 0x00000000#32 h hφ hacc (ix1 r) = ∑ j : Fin 512, X (ix2 r j) := by
  refine (Ideal.multiReduction_add_single X 0x00000000#32 h hφ hacc (ix1 r)).trans ?_
  show ∑ j : Fin 512, X (h.lift (ix1 r) j) = ∑ j : Fin 512, X (ix2 r j)
  exact Finset.sum_congr rfl fun j _ => congrArg X (lift_row h r j)

/-- The new shift of row r. -/
private theorem pay1_apply (S : FVec Ideal S2048x512 .f32) (mo : FVec Ideal S2048x1 .f32) (r : Fin 2048) :
    k0_pay1 (F := Ideal) S mo (ix2 r (0 : Fin 1)) = max (mo (ix2 r (0 : Fin 1))) (rowMax S r) := by
  unfold k0_pay1
  dsimp only
  rw [maximumf_apply, shapeCast_a_a1_apply, rowMax_read]

theorem stepM_apply (S : FVec Ideal S2048x512 .f32) (mo : FVec Ideal S2048x1 .f32) (r : Fin 2048) :
    stepM (F := Ideal) S mo (ix2 r (0 : Fin 1)) = max (mo (ix2 r (0 : Fin 1))) (rowMax S r) := by
  unfold stepM k0_pay6
  rw [shapeCast_self, pay1_apply]

/-- The exponential of a block, read at an index. -/
private theorem exp_apply {s : Shape} {φ : FTy} (a : FVec Ideal s φ) (i : s.Idx) : exp a i = Ideal.exp (a i) := rfl

/-- The factor that rescales row r's old totals to the new shift. -/
private theorem pay2_apply (S : FVec Ideal S2048x512 .f32) (mo : FVec Ideal S2048x1 .f32) (r : Fin 2048) :
    k0_pay2 (F := Ideal) S mo mo (ix2 r (0 : Fin 1))
      = Ideal.exp (mo (ix2 r (0 : Fin 1)) - max (mo (ix2 r (0 : Fin 1))) (rowMax S r)) := by
  unfold k0_pay2
  rw [exp_apply, subf_apply, pay1_apply]

/-- The weight of column j in row r, relative to the new shift. -/
private theorem pay3_apply (S : FVec Ideal S2048x512 .f32) (mo : FVec Ideal S2048x1 .f32) (r : Fin 2048) (j : Fin 512) :
    k0_pay3 (F := Ideal) S mo (ix2 r j) = Ideal.exp (S (ix2 r j) - max (mo (ix2 r (0 : Fin 1))) (rowMax S r)) := by
  unfold k0_pay3
  rw [exp_apply, subf_apply, broadcastTo_a1_ab_apply, pay1_apply]

theorem stepL_apply (S : FVec Ideal S2048x512 .f32) (mo lo : FVec Ideal S2048x1 .f32) (r : Fin 2048) :
    stepL (F := Ideal) S mo lo (ix2 r (0 : Fin 1))
      = Ideal.exp (mo (ix2 r (0 : Fin 1)) - max (mo (ix2 r (0 : Fin 1))) (rowMax S r)) * lo (ix2 r (0 : Fin 1))
        + ∑ j : Fin 512, Ideal.exp (S (ix2 r j) - max (mo (ix2 r (0 : Fin 1))) (rowMax S r)) := by
  unfold stepL k0_pay4
  dsimp only
  rw [shapeCast_self, addf_apply, mulf_apply, pay2_apply, shapeCast_a_a1_apply, rowSum_read]
  simp only [pay3_apply]

/-! The product of the block of weights [2048, 512] with the block of rows [512, 1024]: the left factor is read at
    (output row, contraction index), the right one at (contraction index, output column). -/

private theorem pv_lhs_row (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
private theorem pv_lhs_col (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
private theorem pv_rhs_row (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
private theorem pv_rhs_col (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- The product into the zero block, read at (r, h): the sum over the block's 512 columns. -/
private theorem pv_read (A : FVec Ideal S2048x512 .bf16) (B : FVec Ideal S512x1024 .bf16) (r : Fin 2048) (h : Fin 1024) :
    matmul dot_S2048x512_S512x1024_S2048x1024_1_0_0_1_n_n none A B (constant (F := Ideal) S2048x1024 .f32 0x00000000#32) (ix2 r h)
      = ∑ j : Fin 512, A (ix2 r j) * B (ix2 j h) := by
  simp only [matmul]
  rw [Ideal.matmul_constant_zero_apply, ← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 r h) ((contrEquiv1 dot_S2048x512_S512x1024_S2048x1024_1_0_0_1_n_n 512 rfl rfl).symm k) = ix2 r k := funext fun a => Fin.ext (by
    match a with
    | ⟨0, _⟩ => exact pv_lhs_row _ _
    | ⟨1, _⟩ => exact (pv_lhs_col _ _).trans hk)
  have er : dot_S2048x512_S512x1024_S2048x1024_1_0_0_1_n_n.rhsIdx (ix2 r h) ((contrEquiv1 dot_S2048x512_S512x1024_S2048x1024_1_0_0_1_n_n 512 rfl rfl).symm k) = ix2 k h := funext fun a => Fin.ext (by
    match a with
    | ⟨0, _⟩ => exact (pv_rhs_row _ _).trans hk
    | ⟨1, _⟩ => exact pv_rhs_col _ _)
  rw [el, er]

theorem stepAcc_apply (x1 : FVec Ideal S1x512x1024 .f32) (S : FVec Ideal S2048x512 .f32) (mo : FVec Ideal S2048x1 .f32)
    (ao : FVec Ideal S2048x1024 .f32) (r : Fin 2048) (h : Fin 1024) :
    stepAcc (F := Ideal) x1 S mo ao (ix2 r h)
      = Ideal.exp (mo (ix2 r (0 : Fin 1)) - max (mo (ix2 r (0 : Fin 1))) (rowMax S r)) * ao (ix2 r h)
        + ∑ j : Fin 512, Ideal.exp (S (ix2 r j) - max (mo (ix2 r (0 : Fin 1))) (rowMax S r)) * x1 (ix3 (0 : Fin 1) j h) := by
  unfold stepAcc k0_pay5 k0_pay11
  dsimp only
  rw [shapeCast_self, addf_apply, mulf_apply, broadcastTo_a1_ab_apply, pay2_apply, pv_read]
  simp only [truncf_apply, pay3_apply, shapeCast_1ab_ab_apply]

theorem m0_apply (r : Fin 2048) : m0 (F := Ideal) (ix2 r (0 : Fin 1)) = (⊥ : EReal) := by
  unfold m0 k0_pay8
  rw [shapeCast_self, broadcast_apply]
  exact negInf_eq_bot

theorem l0_apply (r : Fin 2048) : l0 (F := Ideal) (ix2 r (0 : Fin 1)) = (0 : EReal) := by
  unfold l0 k0_pay9
  rw [shapeCast_self, broadcast_apply]
  exact Ideal.ofBits_zero_f32

theorem a0_apply (r : Fin 2048) (h : Fin 1024) : a0 (F := Ideal) (ix2 r h) = (0 : EReal) := by
  unfold a0 k0_pay10
  rw [shapeCast_self, broadcast_apply]
  exact Ideal.ofBits_zero_f32

end Cert.Attn

end
-- ==== Proof.SoftmaxStep.lean ====
/-
  One step of the running softmax state read over real numbers.

  The state after some number N of columns, relative to a shift μ r per row, is: the shift itself, the total weight
  ∑_{q<N} e^(s q − μ), and the weighted sums ∑_{q<N} e^(s q − μ) · v q h. A step takes 512 more columns. Its new shift
  μ' is the larger of μ and the block's maximum: all that matters here is that it is again a real number. The old
  totals are rescaled by e^(μ − μ') and the block's terms, relative to μ', are added: by the prefix-sum law of
  LibSoftmaxReal the result is the state after N + 512 columns relative to μ'. The first step of a batch starts from
  shift −∞ and zero totals; its rescaling factor multiplies zero.
-/
import proofs.«419783_j44547400794507_3_alg».proof.Proof.StepEntries
import proofs.«419783_j44547400794507_3_alg».proof.Proof.LibSoftmaxReal
import Idealize.ShloMosaic.Lib.ValueIdx
import Idealize.ShloMosaic.Lib.ValueLayout
import Idealize.ShloMosaic.Lib.Pipeline.Value
import Idealize.ShloMosaic.PureOps.Ideal.Laws

noncomputable section

namespace Cert.Attn

open Cert.KernelIdeal Cert.KernelIdeal.Gen Idealize.ShloMosaic Idealize.ShloMosaic.ValueIdx Finset Cert.AttnReal

/-- The coercion of the larger of two real numbers is the larger of their coercions. -/
private theorem coe_max' (x y : ℝ) : ((max x y : ℝ) : EReal) = max (x : EReal) (y : EReal) :=
  EReal.coe_strictMono.monotone.map_max

/-- The largest, from −∞, of finitely many real numbers, at least one of them, is a real number. -/
private theorem fold_max_coe {ι : Type*} (s : Finset ι) (hs : s.Nonempty) (f : ι → ℝ) :
    ∃ b : ℝ, s.fold max (⊥ : EReal) (fun j => ((f j : ℝ) : EReal)) = (b : EReal) := by
  classical
  induction s using Finset.induction_on with
  | empty => exact absurd hs (by simp)
  | insert a s ha ih =>
    rw [Finset.fold_insert ha]
    rcases s.eq_empty_or_nonempty with rfl | hne
    · exact ⟨f a, by rw [Finset.fold_empty]; exact max_eq_left bot_le⟩
    · obtain ⟨b, hb⟩ := ih hne
      exact ⟨max (f a) b, by rw [hb, coe_max']⟩

/-- The largest score of a row of the block is a real number when the block's scores are. -/
private theorem rowMax_coe (S : FVec Ideal S2048x512 .f32) (s : Fin 2048 → Fin 512 → ℝ)
    (hS : ∀ (r : Fin 2048) (j : Fin 512), S (ix2 r j) = ((s r j : ℝ) : EReal)) (r : Fin 2048) :
    ∃ b : ℝ, rowMax S r = (b : EReal) := by
  have h : (fun j : Fin 512 => S (ix2 r j)) = fun j => ((s r j : ℝ) : EReal) := funext (hS r)
  rw [rowMax, h]
  exact fold_max_coe _ Finset.univ_nonempty _

/-- The exponential of a difference of real numbers, taken in the extended reals. -/
private theorem exp_sub_coe (a c : ℝ) :
    Ideal.exp ((a : EReal) - (c : EReal)) = ((Real.exp (a - c) : ℝ) : EReal) := by
  rw [← EReal.coe_sub]; rfl

/-- A block's total weight relative to a real shift is the coercion of the real total. -/
private theorem sum_exp_coe {ι : Type*} [Fintype ι] (s : ι → ℝ) (c : ℝ) :
    ∑ j, Ideal.exp ((s j : EReal) - (c : EReal)) = ((∑ j, Real.exp (s j - c) : ℝ) : EReal) := by
  rw [coe_sum]; exact Finset.sum_congr rfl fun j _ => exp_sub_coe _ _

/-- A block's weighted sum relative to a real shift is the coercion of the real weighted sum. -/
private theorem sum_exp_mul_coe {ι : Type*} [Fintype ι] (s v : ι → ℝ) (c : ℝ) :
    ∑ j, Ideal.exp ((s j : EReal) - (c : EReal)) * (v j : EReal)
      = ((∑ j, Real.exp (s j - c) * v j : ℝ) : EReal) := by
  rw [coe_sum]; exact Finset.sum_congr rfl fun j _ => by rw [exp_sub_coe, EReal.coe_mul]

/-- The first step of a batch: from the start values to the state after 512 columns. -/
theorem step_first (S : FVec Ideal S2048x512 .f32) (x1 : FVec Ideal S1x512x1024 .f32)
    (Sf : Fin 2048 → ℕ → ℝ) (Vf : ℕ → Fin 1024 → ℝ)
    (hS : ∀ (r : Fin 2048) (j : Fin 512), S (ix2 r j) = ((Sf r j.val : ℝ) : EReal))
    (hV : ∀ (j : Fin 512) (h : Fin 1024), x1 (ix3 (0 : Fin 1) j h) = ((Vf j.val h : ℝ) : EReal)) :
    ∃ μ : Fin 2048 → ℝ,
      (∀ r : Fin 2048, stepM (F := Ideal) S (m0 (F := Ideal)) (ix2 r (0 : Fin 1)) = ((μ r : ℝ) : EReal)) ∧
      (∀ r : Fin 2048, stepL (F := Ideal) S (m0 (F := Ideal)) (l0 (F := Ideal)) (ix2 r (0 : Fin 1))
          = ((∑ q ∈ range 512, Real.exp (Sf r q - μ r) : ℝ) : EReal)) ∧
      (∀ (r : Fin 2048) (h : Fin 1024), stepAcc (F := Ideal) x1 S (m0 (F := Ideal)) (a0 (F := Ideal)) (ix2 r h)
          = ((∑ q ∈ range 512, Real.exp (Sf r q - μ r) * Vf q h : ℝ) : EReal)) := by
  choose b hb using rowMax_coe S (fun r j => Sf r j.val) hS
  -- the new shift of a row: the larger of −∞ and the row's largest score, which is that score
  have hmax : ∀ r : Fin 2048, max (⊥ : EReal) (rowMax S r) = ((b r : ℝ) : EReal) := fun r => by
    rw [hb r]; exact max_eq_right bot_le
  refine ⟨b, fun r => ?_, fun r => ?_, fun r h => ?_⟩
  · rw [stepM_apply, m0_apply, hmax]
  · -- the rescaling factor multiplies the zero start value; what is left is the block's own total
    rw [stepL_apply, m0_apply, l0_apply, hmax, mul_zero, zero_add]
    have h1 : (fun j : Fin 512 => Ideal.exp (S (ix2 r j) - ((b r : ℝ) : EReal)))
        = fun j : Fin 512 => Ideal.exp (((Sf r j.val : ℝ) : EReal) - ((b r : ℝ) : EReal)) :=
      funext fun j => by rw [hS]
    rw [h1, sum_exp_coe (fun j : Fin 512 => Sf r j.val) (b r),
      Fin.sum_univ_eq_sum_range (fun q => Real.exp (Sf r q - b r)) 512]
  · rw [stepAcc_apply, m0_apply, a0_apply, hmax, mul_zero, zero_add]
    have h1 : (fun j : Fin 512 => Ideal.exp (S (ix2 r j) - ((b r : ℝ) : EReal)) * x1 (ix3 (0 : Fin 1) j h))
        = fun j : Fin 512 => Ideal.exp (((Sf r j.val : ℝ) : EReal) - ((b r : ℝ) : EReal)) * ((Vf j.val h : ℝ) : EReal) :=
      funext fun j => by rw [hS, hV]
    rw [h1, sum_exp_mul_coe (fun j : Fin 512 => Sf r j.val) (fun j : Fin 512 => Vf j.val h) (b r),
      Fin.sum_univ_eq_sum_range (fun q => Real.exp (Sf r q - b r) * Vf q h) 512]

/-- A later step: from the state after N columns to the state after N + 512. -/
theorem step_next (S : FVec Ideal S2048x512 .f32) (x1 : FVec Ideal S1x512x1024 .f32)
    (mo lo : FVec Ideal S2048x1 .f32) (ao : FVec Ideal S2048x1024 .f32)
    (Sf : Fin 2048 → ℕ → ℝ) (Vf : ℕ → Fin 1024 → ℝ) (N : ℕ) (μ : Fin 2048 → ℝ)
    (hS : ∀ (r : Fin 2048) (j : Fin 512), S (ix2 r j) = ((Sf r (N + j.val) : ℝ) : EReal))
    (hV : ∀ (j : Fin 512) (h : Fin 1024), x1 (ix3 (0 : Fin 1) j h) = ((Vf (N + j.val) h : ℝ) : EReal))
    (hm : ∀ r : Fin 2048, mo (ix2 r (0 : Fin 1)) = ((μ r : ℝ) : EReal))
    (hl : ∀ r : Fin 2048, lo (ix2 r (0 : Fin 1)) = ((∑ q ∈ range N, Real.exp (Sf r q - μ r) : ℝ) : EReal))
    (ha : ∀ (r : Fin 2048) (h : Fin 1024), ao (ix2 r h) = ((∑ q ∈ range N, Real.exp (Sf r q - μ r) * Vf q h : ℝ) : EReal)) :
    ∃ μ' : Fin 2048 → ℝ,
      (∀ r : Fin 2048, stepM (F := Ideal) S mo (ix2 r (0 : Fin 1)) = ((μ' r : ℝ) : EReal)) ∧
      (∀ r : Fin 2048, stepL (F := Ideal) S mo lo (ix2 r (0 : Fin 1))
          = ((∑ q ∈ range (N + 512), Real.exp (Sf r q - μ' r) : ℝ) : EReal)) ∧
      (∀ (r : Fin 2048) (h : Fin 1024), stepAcc (F := Ideal) x1 S mo ao (ix2 r h)
          = ((∑ q ∈ range (N + 512), Real.exp (Sf r q - μ' r) * Vf q h : ℝ) : EReal)) := by
  choose b hb using rowMax_coe S (fun r j => Sf r (N + j.val)) hS
  -- the new shift of a row: the larger of the old shift and the row's largest score, both real numbers
  have hmax : ∀ r : Fin 2048, max (mo (ix2 r (0 : Fin 1))) (rowMax S r) = ((max (μ r) (b r) : ℝ) : EReal) :=
    fun r => by rw [hm r, hb r, coe_max']
  refine ⟨fun r => max (μ r) (b r), fun r => ?_, fun r => ?_, fun r h => ?_⟩
  · rw [stepM_apply, hmax]
  · rw [stepL_apply, hmax, hm, hl]
    have h1 : (fun j : Fin 512 => Ideal.exp (S (ix2 r j) - ((max (μ r) (b r) : ℝ) : EReal)))
        = fun j : Fin 512 => Ideal.exp (((Sf r (N + j.val) : ℝ) : EReal) - ((max (μ r) (b r) : ℝ) : EReal)) :=
      funext fun j => by rw [hS]
    rw [h1, sum_exp_coe (fun j : Fin 512 => Sf r (N + j.val)) (max (μ r) (b r)), exp_sub_coe,
      ← EReal.coe_mul, ← EReal.coe_add]
    exact congrArg _ (prefix_step_one (Sf r) N 512 (μ r) (max (μ r) (b r)))
  · rw [stepAcc_apply, hmax, hm, ha]
    have h1 : (fun j : Fin 512 => Ideal.exp (S (ix2 r j) - ((max (μ r) (b r) : ℝ) : EReal)) * x1 (ix3 (0 : Fin 1) j h))
        = fun j : Fin 512 => Ideal.exp (((Sf r (N + j.val) : ℝ) : EReal) - ((max (μ r) (b r) : ℝ) : EReal))
            * ((Vf (N + j.val) h : ℝ) : EReal) :=
      funext fun j => by rw [hS, hV]
    rw [h1, sum_exp_mul_coe (fun j : Fin 512 => Sf r (N + j.val)) (fun j : Fin 512 => Vf (N + j.val) h)
        (max (μ r) (b r)), exp_sub_coe, ← EReal.coe_mul, ← EReal.coe_add]
    exact congrArg _ (prefix_step (Sf r) (fun q => Vf q h) N 512 (μ r) (max (μ r) (b r)))

end Cert.Attn

end
-- ==== Proof.Induct.lean ====
/-
  The three carried scratch buffers after every grid point, by induction on the point.

  After point n (batch n / 4, column block n % 4) the buffers hold the running state of that batch's rows after
  512·(n % 4 + 1) columns: a real shift per row, the total weight and the weighted sums of q's rows relative to it.
  A batch's first point starts from the start values; every other point continues from what the point before left.
  At a batch's last point all 2048 columns are in, the output block is formed from the state, and the quotient of the
  two prefix sums is the specification's mean whatever the shift ended at: the output block is the specification's
  rows of that batch.
-/
import proofs.«419783_j44547400794507_3_alg».proof.Proof.Blocks
import proofs.«419783_j44547400794507_3_alg».proof.Proof.Pieces
import proofs.«419783_j44547400794507_3_alg».proof.Proof.ScoresValue
import proofs.«419783_j44547400794507_3_alg».proof.Proof.FinalValue
import proofs.«419783_j44547400794507_3_alg».proof.Proof.SoftmaxStep

noncomputable section

namespace Cert.Attn

open Cert.KernelIdeal Cert.KernelIdeal.Gen Idealize.ShloMosaic Idealize.ShloMosaic.TcCoe Idealize.ShloMosaic.ValueIdx Idealize.SL.Sem Finset Cert.AttnReal

variable {m : (ℓ : Loc nD τ sig) → Buf (Elt Ideal) ℓ} {I : Dev nD → RIn}

/-- The block of scores of point t. -/
abbrev scoresAt (m : (ℓ : Loc nD τ sig) → Buf (Elt Ideal) ℓ) (c : Dev nD) (t : Fin cfg0.N) : FVec Ideal S2048x512 .f32 :=
  scores (F := Ideal) (blkP m c t) (blkQ m c t) (blkWhi m c t) (blkWlo m c t) (blkB m c t)

/-- What the point before t left (the frame's own spelling of it). -/
abbrev prevAt (m : (ℓ : Loc nD τ sig) → Buf (Elt Ideal) ℓ) (c : Dev nD) (t : Fin cfg0.N) :=
  outsAt0 m c (t.val - 1) (Nat.lt_of_le_of_lt (Nat.sub_le _ _) t.isLt)

/-! ## The frame's case equations, through the step functions -/

theorem outs_A (c : Dev nD) (t : Fin cfg0.N) (h0 : t.val % 4 = 0) (h1 : ¬t.val % 4 = 3) :
    (outsAt0 m c t.val t.isLt).2.1 = stepM (scoresAt m c t) (m0 (F := Ideal))
    ∧ (outsAt0 m c t.val t.isLt).2.2.1 = stepL (scoresAt m c t) (m0 (F := Ideal)) (l0 (F := Ideal))
    ∧ (outsAt0 m c t.val t.isLt).2.2.2 = stepAcc (blkQ m c t) (scoresAt m c t) (m0 (F := Ideal)) (a0 (F := Ideal)) := by
  rw [outsAt0_A m c t h0 h1]; dsimp only
  exact ⟨Pieces.sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t),
    Pieces.sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t),
    Pieces.sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)⟩

theorem outs_B (c : Dev nD) (t : Fin cfg0.N) (h0 : ¬t.val % 4 = 0) (h1 : ¬t.val % 4 = 3) :
    (outsAt0 m c t.val t.isLt).2.1 = stepM (scoresAt m c t) (prevAt m c t).2.1
    ∧ (outsAt0 m c t.val t.isLt).2.2.1 = stepL (scoresAt m c t) (prevAt m c t).2.1 (prevAt m c t).2.2.1
    ∧ (outsAt0 m c t.val t.isLt).2.2.2 = stepAcc (blkQ m c t) (scoresAt m c t) (prevAt m c t).2.1 (prevAt m c t).2.2.2 := by
  rw [outsAt0_B m c t h0 h1]; dsimp only
  exact ⟨Pieces.sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (prevAt m c t).2.1 (prevAt m c t).2.2.1 (prevAt m c t).2.2.2,
    Pieces.sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (prevAt m c t).2.1 (prevAt m c t).2.2.1 (prevAt m c t).2.2.2,
    Pieces.sout_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (prevAt m c t).2.1 (prevAt m c t).2.2.1 (prevAt m c t).2.2.2⟩

theorem outs_C (c : Dev nD) (t : Fin cfg0.N) (h0 : ¬t.val % 4 = 0) (h1 : t.val % 4 = 3) :
    (outsAt0 m c t.val t.isLt).2.1 = stepM (scoresAt m c t) (prevAt m c t).2.1
    ∧ (outsAt0 m c t.val t.isLt).2.2.1 = stepL (scoresAt m c t) (prevAt m c t).2.1 (prevAt m c t).2.2.1
    ∧ (outsAt0 m c t.val t.isLt).2.2.2 = stepAcc (blkQ m c t) (scoresAt m c t) (prevAt m c t).2.1 (prevAt m c t).2.2.2
    ∧ (outsAt0 m c t.val t.isLt).1 = finalOut (blkWhi m c t) (blkB m c t)
        (stepAcc (blkQ m c t) (scoresAt m c t) (prevAt m c t).2.1 (prevAt m c t).2.2.2)
        (stepL (scoresAt m c t) (prevAt m c t).2.1 (prevAt m c t).2.2.1) := by
  rw [outsAt0_C m c t h0 h1]; dsimp only
  exact ⟨Pieces.sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (prevAt m c t).2.1 (prevAt m c t).2.2.1 (prevAt m c t).2.2.2,
    Pieces.sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (prevAt m c t).2.1 (prevAt m c t).2.2.1 (prevAt m c t).2.2.2,
    Pieces.sout_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (prevAt m c t).2.1 (prevAt m c t).2.2.1 (prevAt m c t).2.2.2,
    Pieces.out_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (prevAt m c t).2.1 (prevAt m c t).2.2.1 (prevAt m c t).2.2.2⟩

/-! ## The block of scores is the specification's -/

theorem scoresAt_apply (hI : Models m I) (c : Dev nD) (t : Fin cfg0.N) (r : Fin 2048) (j : Fin 512) :
    scoresAt m c t (ix2 r j) = ((scoreN (I c) (batchOf t) r (512 * (t.val % 4) + j.val) : ℝ) : EReal) := by
  have hlt : 512 * (t.val % 4) + j.val < 2048 := by have := j.isLt; omega
  refine (scores_apply (blkP m c t) (blkQ m c t) (blkWhi m c t) (blkWlo m c t) (blkB m c t)
    ((I c).p (batchOf t)) (fun j h => valN (I c) (batchOf t) (512 * (t.val % 4) + j.val) h) ((I c).w) ((I c).b)
    (blkP_apply hI c t) (blkQ_apply hI c t) (blkWhi_apply hI c t) (blkWlo_apply hI c t) (blkB_apply hI c t) r j).trans ?_
  rw [scoreN_lt _ _ _ _ hlt]
  unfold score key
  simp only [valN_lt _ _ _ hlt]

/-! ## The state after every point -/

/-- The running state of batch b's rows after N columns. -/
def StateAt (J : RIn) (b : Fin 16) (N : ℕ) (mo lo : FVec Ideal S2048x1 .f32) (ao : FVec Ideal S2048x1024 .f32) : Prop :=
  ∃ μ : Fin 2048 → ℝ,
    (∀ r : Fin 2048, mo (ix2 r (0 : Fin 1)) = ((μ r : ℝ) : EReal)) ∧
    (∀ r : Fin 2048, lo (ix2 r (0 : Fin 1)) = ((∑ q ∈ range N, Real.exp (scoreN J b r q - μ r) : ℝ) : EReal)) ∧
    (∀ (r : Fin 2048) (h : Fin 1024), ao (ix2 r h) = ((∑ q ∈ range N, Real.exp (scoreN J b r q - μ r) * valN J b q h : ℝ) : EReal))

theorem state_inv (hI : Models m I) (c : Dev nD) : ∀ (n : ℕ) (hn : n < cfg0.N),
    StateAt (I c) (batchOf ⟨n, hn⟩) (512 * (n % 4 + 1)) (outsAt0 m c n hn).2.1 (outsAt0 m c n hn).2.2.1 (outsAt0 m c n hn).2.2.2 := by
  intro n
  induction n with
  | zero =>
    intro hn
    obtain ⟨e0, e1, e2⟩ := outs_A (m := m) c ⟨0, hn⟩ rfl (by show ¬(0 % 4 = 3); decide)
    have hs := step_first (scoresAt m c ⟨0, hn⟩) (blkQ m c ⟨0, hn⟩) (scoreN (I c) (batchOf ⟨0, hn⟩)) (valN (I c) (batchOf ⟨0, hn⟩))
      (fun r j => by rw [scoresAt_apply hI c ⟨0, hn⟩ r j]; simp)
      (fun j h => by rw [blkQ_apply hI c ⟨0, hn⟩ j h]; simp)
    obtain ⟨μ, hm, hl, ha⟩ := hs
    refine ⟨μ, ?_, ?_, ?_⟩
    · intro r; rw [show (outsAt0 m c 0 hn).2.1 = _ from e0]; exact hm r
    · intro r; rw [show (outsAt0 m c 0 hn).2.2.1 = _ from e1]; exact hl r
    · intro r h; rw [show (outsAt0 m c 0 hn).2.2.2 = _ from e2]; exact ha r h
  | succ n ih =>
    intro hn
    have hN : n + 1 < 64 := lt_of_lt_of_eq hn (show cfg0.N = 64 from N_0)
    by_cases h0 : (n + 1) % 4 = 0
    · -- a batch's first point
      have h1 : ¬(n + 1) % 4 = 3 := by omega
      obtain ⟨e0, e1, e2⟩ := outs_A (m := m) c ⟨n + 1, hn⟩ h0 h1
      have hs := step_first (scoresAt m c ⟨n + 1, hn⟩) (blkQ m c ⟨n + 1, hn⟩) (scoreN (I c) (batchOf ⟨n + 1, hn⟩)) (valN (I c) (batchOf ⟨n + 1, hn⟩))
        (fun r j => by rw [scoresAt_apply hI c ⟨n + 1, hn⟩ r j]; simp only [h0]; simp)
        (fun j h => by rw [blkQ_apply hI c ⟨n + 1, hn⟩ j h]; simp only [h0]; simp)
      obtain ⟨μ, hm, hl, ha⟩ := hs
      rw [h0]
      refine ⟨μ, ?_, ?_, ?_⟩
      · intro r; rw [show (outsAt0 m c (n + 1) hn).2.1 = _ from e0]; exact hm r
      · intro r; rw [show (outsAt0 m c (n + 1) hn).2.2.1 = _ from e1]; exact hl r
      · intro r h; rw [show (outsAt0 m c (n + 1) hn).2.2.2 = _ from e2]; exact ha r h
    · -- a later point of the batch: continue from the point before
      have hn' : n < cfg0.N := Nat.lt_of_succ_lt hn
      obtain ⟨μ, hm, hl, ha⟩ := ih hn'
      have hb : batchOf (⟨n, hn'⟩ : Fin cfg0.N) = batchOf ⟨n + 1, hn⟩ := Fin.ext (by show n / 4 = (n + 1) / 4; omega)
      have hk : 512 * ((n + 1) % 4) = 512 * (n % 4 + 1) := by omega
      have hk' : 512 * ((n + 1) % 4 + 1) = 512 * (n % 4 + 1) + 512 := by omega
      rw [hb] at hl ha
      have e : (outsAt0 m c (n + 1) hn).2.1 = stepM (scoresAt m c ⟨n + 1, hn⟩) (outsAt0 m c n hn').2.1
          ∧ (outsAt0 m c (n + 1) hn).2.2.1 = stepL (scoresAt m c ⟨n + 1, hn⟩) (outsAt0 m c n hn').2.1 (outsAt0 m c n hn').2.2.1
          ∧ (outsAt0 m c (n + 1) hn).2.2.2 = stepAcc (blkQ m c ⟨n + 1, hn⟩) (scoresAt m c ⟨n + 1, hn⟩) (outsAt0 m c n hn').2.1 (outsAt0 m c n hn').2.2.2 := by
        by_cases h1 : (n + 1) % 4 = 3
        · obtain ⟨a, b, d, _⟩ := outs_C (m := m) c ⟨n + 1, hn⟩ h0 h1; exact ⟨a, b, d⟩
        · exact outs_B (m := m) c ⟨n + 1, hn⟩ h0 h1
      obtain ⟨e0, e1, e2⟩ := e
      have hs := step_next (scoresAt m c ⟨n + 1, hn⟩) (blkQ m c ⟨n + 1, hn⟩) (outsAt0 m c n hn').2.1 (outsAt0 m c n hn').2.2.1 (outsAt0 m c n hn').2.2.2
        (scoreN (I c) (batchOf ⟨n + 1, hn⟩)) (valN (I c) (batchOf ⟨n + 1, hn⟩)) (512 * (n % 4 + 1)) μ
        (fun r j => by rw [scoresAt_apply hI c ⟨n + 1, hn⟩ r j]; simp only [hk])
        (fun j h => by rw [blkQ_apply hI c ⟨n + 1, hn⟩ j h]; simp only [hk])
        hm hl ha
      obtain ⟨μ', hm', hl', ha'⟩ := hs
      rw [hk']
      refine ⟨μ', ?_, ?_, ?_⟩
      · intro r; rw [e0]; exact hm' r
      · intro r; rw [e1]; exact hl' r
      · intro r h; rw [e2]; exact ha' r h

/-! ## The output block at a batch's last point -/

theorem out_flush (hI : Models m I) (c : Dev nD) (t : Fin cfg0.N) (h3 : t.val % 4 = 3) (r : Fin 2048) (o : Fin 1024) :
    (outsAt0 m c t.val t.isLt).1 (ix3 (0 : Fin 1) r o) = G (I c) (ix3 (batchOf t) r o) := by
  have h0 : ¬t.val % 4 = 0 := by omega
  obtain ⟨μ, _, hl, ha⟩ := state_inv hI c t.val t.isLt
  obtain ⟨_, e1, e2, e5⟩ := outs_C (m := m) c t h0 h3
  rw [e5, ← e2, ← e1]
  have hN : 512 * (t.val % 4 + 1) = 2048 := by omega
  rw [hN] at hl ha
  rw [final_apply (blkWhi m c t) (blkB m c t) (outsAt0 m c t.val t.isLt).2.2.2 (outsAt0 m c t.val t.isLt).2.2.1
    ((I c).w) ((I c).b)
    (fun r h => ∑ q ∈ range 2048, Real.exp (scoreN (I c) (batchOf t) r q - μ r) * valN (I c) (batchOf t) q h)
    (fun r => ∑ q ∈ range 2048, Real.exp (scoreN (I c) (batchOf t) r q - μ r))
    (fun r => prefix_total_ne (I c) (batchOf t) r (μ r))
    (blkWhi_apply hI c t) (blkB_apply hI c t) ha hl r o]
  rw [G_ix3]; unfold outR
  simp only [attn_of_prefix]

end Cert.Attn

end
-- ==== Proof.KernelRun.lean ====
/-
  The kernel's result array is the specification's.

  The output window is written back at the last point of each batch, points 4n + 3, and its block there is the 2048
  rows of batch n: by the induction on the points that block holds the specification's rows of the batch. The sixteen
  blocks tile the array, so after the run the whole array is the specification's, and the arguments are as they were.
-/
import proofs.«419783_j44547400794507_3_alg».proof.Proof.Induct
import proofs.«419783_j44547400794507_3_alg».proof.Proof.Gen.KernelIdeal.Value
import Idealize.ShloMosaic.Lib.Pipeline.Value

noncomputable section

namespace Cert.Attn

open Cert.KernelIdeal Cert.KernelIdeal.Gen Idealize.ShloMosaic Idealize.ShloMosaic.TcCoe Idealize.ShloMosaic.ValueIdx Idealize.SL.Sem
open Idealize.ShloMosaic.Pipeline (Dat)

variable {m : (ℓ : Loc nD τ sig) → Buf (Elt Ideal) ℓ} {I : Dev nD → RIn}

/-- The specification's array as the contents of the result buffer. -/
abbrev Gbuf (J : RIn) (c : Dev nD) : Buf (Elt Ideal) ((c : Thread nD τ).loc main_v5) := G J

/-- The output window's block index at point t: batch t / 4, and the whole of the other two axes. -/
theorem idx_out : ∀ t : Fin cfg0.N, win0_5.index t (0 : Fin 3) = t.val / 4 ∧ win0_5.index t (1 : Fin 3) = 0
    ∧ win0_5.index t (2 : Fin 3) = 0 :=
  (by decide +kernel : ∀ t : Fin grid0.N, _)

/-- What a flushing point writes back is its block of the specification's array. -/
theorem flushed_eq (hI : Models m I) (c : Dev nD) (t : Fin cfg0.N) (hf : (cfg0.win 5).flush t = true) :
    (dats m 0 c).flushed 5 t = ((cfg0.win 5).blk t).view.read (Elt Ideal) (G (I c)) := by
  have h3 : t.val % 4 = 3 := (flush0_5 t).mp hf
  rw [Cert.KernelIdeal.Value.flushed5]
  obtain ⟨e0, e1, e2⟩ := idx_out t
  funext j
  have hj0 : (j 0).val < 1 := (j 0).isLt
  have hj1 : (j 1).val < 2048 := (j 1).isLt
  have hj2 : (j 2).val < 1024 := (j 2).isLt
  have e : j = ix3 (0 : Fin 1) ⟨(j 1).val, hj1⟩ ⟨(j 2).val, hj2⟩ := by
    funext a; apply Fin.ext
    match a with
    | ⟨0, _⟩ => show (j 0).val = 0; omega
    | ⟨1, _⟩ => rfl
    | ⟨2, _⟩ => rfl
  have ho := out_flush hI c t h3 ⟨(j 1).val, hj1⟩ ⟨(j 2).val, hj2⟩
  rw [← e] at ho
  show (outsAt0 m c t.val t.isLt).1 j = G (I c) (((cfg0.win 5).blk t).view.emb j)
  refine ho.trans (congrArg (G (I c)) ?_)
  funext a; apply Fin.ext
  match a with
  | ⟨0, _⟩ => show t.val / 4 = win0_5.index t (0 : Fin 3) * 1 + 1 * (j 0).val; omega
  | ⟨1, _⟩ => show (j 1).val = win0_5.index t (1 : Fin 3) * 2048 + 1 * (j 1).val; omega
  | ⟨2, _⟩ => show (j 2).val = win0_5.index t (2 : Fin 3) * 1024 + 1 * (j 2).val; omega

/-- An index of the array is in point t's block iff each coordinate is in the block's range on its axis. -/
theorem mem_blk_out (t : Fin cfg0.N) (i : S16x2048x1024.Idx) :
    i ∈ ((cfg0.win 5).blk t).view.set ↔ ∀ a : Fin 3, win0_5.index t a * S1x2048x1024.size a ≤ (i a).val ∧ (i a).val < win0_5.index t a * S1x2048x1024.size a + S1x2048x1024.size a := by
  show i ∈ ((View.whole main_v5).slice (win0_5.rect t)).set ↔ _
  rw [View.set_slice_whole, Rect.mem_set_unit]
  exact Iff.rfl

/-- After the run the result array is the specification's. -/
theorem final_out (hI : Models m I) (c : Dev nD) : (dats m 0 c).arrAt 5 cfg0.N = G (I c) :=
  (dats m 0 c).arrAt_eq_of_cover 5 (G (I c)) (fun t hf => flushed_eq hI c t hf) fun i => by
    have hi0 : (i 0).val < 16 := (i 0).isLt
    have hi1 : (i 1).val < 2048 := (i 1).isLt
    have hi2 : (i 2).val < 1024 := (i 2).isLt
    have hN : cfg0.N = 64 := N_0
    let t : Fin cfg0.N := ⟨4 * (i 0).val + 3, by omega⟩
    have ht : t.val = 4 * (i 0).val + 3 := rfl
    obtain ⟨e0, e1, e2⟩ := idx_out t
    refine ⟨t, (flush0_5 t).mpr (by omega), ?_⟩
    rw [mem_blk_out]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 2048 ≤ (i 1).val ∧ (i 1).val < win0_5.index t (1 : Fin 3) * 2048 + 2048; omega
    | ⟨2, _⟩ => show win0_5.index t (2 : Fin 3) * 1024 ≤ (i 2).val ∧ (i 2).val < win0_5.index t (2 : Fin 3) * 1024 + 1024; omega

/-- The kernel's run: every weakly fair execution ends with the result array at the specification's and the arguments
    unchanged. -/
theorem kernel_run (ρ : Dev nD → PrngReg) (hI : Models m I) :
    θ_run defs (onTc (τ := τ) (main (F := Ideal))) ⟨m, fun _ => 0, ρ⟩ fun r => ∀ c : Dev nD,
      r.2.mem ((c : Thread nD τ).loc main_v5) = Gbuf (I c) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_out hI c), (h c).2⟩)
    (Cert.KernelIdeal.Value.run_blocks m ρ)

end Cert.Attn

end
-- ==== Proof.RefValue.lean ====
/-
  The reference's result, stage by stage, over argument arrays that hold real numbers, is the specification's array.

  Its stages: the projected rows of q plus the bias (the keys); the scores; the row maximum (all that is used of it
  is that it is a real number); the exponentials of score minus maximum; their row totals; the normalised weights;
  their contraction with the rows of q, which by the specification's second reading is the mean; the linear map, the
  bias and the clamp at zero.
-/
import proofs.«419783_j44547400794507_3_alg».proof.Proof.Spec
import proofs.«419783_j44547400794507_3_alg».proof.Proof.Gen.ReferenceIdeal.Read
import Idealize.ShloMosaic.Lib.ValueIdx
import Idealize.ShloMosaic.Lib.Pipeline.Value
import Idealize.ShloMosaic.PureOps.Ideal.Laws

noncomputable section

namespace Cert.Attn

open Idealize.ShloMosaic Idealize.ShloMosaic.ValueIdx Finset Cert.AttnReal

namespace RefStage

open Cert.ReferenceIdeal Cert.ReferenceIdeal.Read

/-- The projected row j of q plus the bias, at column o: the key. -/
theorem keys_at (I : RIn) (n : Fin 16) (j : Fin 2048) (o : Fin 1024) :
    val_main_v3 (F := Ideal) (arrQ I) (arrW I) (arrB I) (ix3 n j o) = ((key I n j o : ℝ) : EReal) := by
  have el : ∀ k : Fin 1024, lidx_main_v0 (ix3 n j o) k = ix3 n j k := fun k => funext fun a => Fin.ext (by
    match a with | ⟨0, _⟩ => rfl | ⟨1, _⟩ => rfl | ⟨2, _⟩ => rfl)
  have er : ∀ k : Fin 1024, ridx_main_v0 (ix3 n j o) k = ix2 o k := fun k => funext fun a => Fin.ext (by
    match a with | ⟨0, _⟩ => rfl | ⟨1, _⟩ => rfl)
  have eb : idx_main_v1 (idx_main_v2 (ix3 n j o)) = ix1 o := funext fun a => Fin.ext (by
    match a with | ⟨0, _⟩ => rfl)
  rw [val_main_v3_apply, val_main_v0_apply, val_main_v2_apply, val_main_v1_apply, Ideal.addf_def, eb, arrB_ix1]
  simp only [el, er, arrQ_ix3, arrW_ix2]
  unfold key
  rw [EReal.coe_add, coe_sum]
  simp only [EReal.coe_mul]

/-- The dot product of row r of p with key j: the score. -/
theorem scores_at (I : RIn) (n : Fin 16) (r j : Fin 2048) :
    val_main_v4 (F := Ideal) (arrP I) (arrQ I) (arrW I) (arrB I) (ix3 n r j) = ((score I n r j : ℝ) : EReal) := by
  have el : ∀ k : Fin 1024, lidx_main_v4 (ix3 n r j) k = ix3 n r k := fun k => funext fun a => Fin.ext (by
    match a with | ⟨0, _⟩ => rfl | ⟨1, _⟩ => rfl | ⟨2, _⟩ => rfl)
  have er : ∀ k : Fin 1024, ridx_main_v4 (ix3 n r j) k = ix3 n j k := fun k => funext fun a => Fin.ext (by
    match a with | ⟨0, _⟩ => rfl | ⟨1, _⟩ => rfl | ⟨2, _⟩ => rfl)
  rw [val_main_v4_apply]
  unfold score
  rw [coe_sum]
  exact Finset.sum_congr rfl fun k _ => by rw [el k, er k, arrP_ix3, keys_at, EReal.coe_mul]

/-- A maximum, started at −∞, over a nonempty finite family of real numbers is a real number. -/
theorem fold_max_real {ι : Type} (s : Finset ι) (hs : s.Nonempty) (f : ι → EReal) (hf : ∀ k, ∃ x : ℝ, f k = (x : EReal)) :
    ∃ M : ℝ, s.fold max (⊥ : EReal) f = (M : EReal) := by
  have hlt : s.fold max (⊥ : EReal) f < ⊤ := (Finset.fold_max_lt _).2 ⟨bot_lt_top, fun k _ => by
    obtain ⟨x, hx⟩ := hf k; rw [hx]; exact EReal.coe_lt_top x⟩
  have hgt : (⊥ : EReal) < s.fold max (⊥ : EReal) f := (Finset.lt_fold_max _).2 (Or.inr (by
    obtain ⟨k, hk⟩ := hs; obtain ⟨x, hx⟩ := hf k; exact ⟨k, hk, by rw [hx]; exact EReal.bot_lt_coe x⟩))
  exact ⟨(s.fold max (⊥ : EReal) f).toReal, (EReal.coe_toReal hlt.ne hgt.ne').symm⟩

/-- The bit pattern of −∞ is the least extended real. -/
theorem negInf_eq_bot : FloatOps.ofBits (F := Ideal) .f32 0xFF800000#32 = (⊥ : EReal) := by
  simp [Ideal.ofBits, Ideal.ieee]

/-- The maximum over the last axis, started at −∞, of an array whose row (n, r) holds real numbers is a real number there. -/
theorem reduce_max_real (y : S16x2048x2048.Idx → EReal) (n : Fin 16) (r : Fin 2048)
    (hy : ∀ j : Fin 2048, ∃ x : ℝ, y (ix3 n r j) = (x : EReal)) :
    ∃ M : ℝ, Host.reduce (α := EReal) (FloatOps.maximumf (F := Ideal) (φ := .f32)) y (val_main_cst (F := Ideal))
      Facts₀.reducesTo_S16x2048x2048_S16x2048_d2 Facts₀.h_S_ (ix2 n r) = (M : EReal) := by
  have h : S16x2048x2048.Reduces [2] S16x2048 := by decide
  have hl : ∀ k : Fin (S16x2048x2048.size 2), h.lift (ix2 n r) k = ix3 n r (⟨k.val, k.isLt⟩ : Fin 2048) := fun k =>
    funext fun c => Fin.ext (by match c with | ⟨0, _⟩ => rfl | ⟨1, _⟩ => rfl | ⟨2, _⟩ => rfl)
  rw [Host.reduce_eq_fold_single (α := EReal) (FloatOps.maximumf (F := Ideal) (φ := .f32)) y (val_main_cst (F := Ideal))
    Facts₀.reducesTo_S16x2048x2048_S16x2048_d2 h Facts₀.h_S_ (ix2 n r), val_main_cst_apply, negInf_eq_bot]
  show ∃ M : ℝ, Finset.fold max (⊥ : EReal) (y ∘ h.lift (ix2 n r)) Finset.univ = (M : EReal)
  refine fold_max_real Finset.univ ⟨⟨0, by show (0 : ℕ) < 2048; decide⟩, Finset.mem_univ _⟩ (y ∘ h.lift (ix2 n r)) fun k => ?_
  obtain ⟨x, hx⟩ := hy ⟨k.val, k.isLt⟩
  exact ⟨x, (congrArg y (hl k)).trans hx⟩

/-- The row maximum of the scores, clamped below by −∞, is a real number. -/
theorem rowmax_real (I : RIn) (n : Fin 16) (r : Fin 2048) :
    ∃ M : ℝ, val_main_v7 (F := Ideal) (arrP I) (arrQ I) (arrW I) (arrB I) (ix2 n r) = (M : EReal) := by
  rw [val_main_v7_apply, val_main_v6_apply, val_main_cst_0_apply, negInf_eq_bot, Ideal.maximumf_def, max_bot_left]
  unfold val_main_v5
  exact reduce_max_real (val_main_v4 (F := Ideal) (arrP I) (arrQ I) (arrW I) (arrB I)) n r fun j => ⟨score I n r j, scores_at I n r j⟩
/-- The exponential of score minus the row's shift. -/
theorem exps_at (I : RIn) (n : Fin 16) (r j : Fin 2048) (M : ℝ)
    (hM : val_main_v7 (F := Ideal) (arrP I) (arrQ I) (arrW I) (arrB I) (ix2 n r) = (M : EReal)) :
    val_main_v11 (F := Ideal) (arrP I) (arrQ I) (arrW I) (arrB I) (ix3 n r j) = ((Real.exp (score I n r j - M) : ℝ) : EReal) := by
  have e : idx_main_v8 (idx_main_v9 (ix3 n r j)) = ix2 n r := funext fun a => Fin.ext (by
    match a with | ⟨0, _⟩ => rfl | ⟨1, _⟩ => rfl)
  rw [val_main_v11_apply, val_main_v10_apply, val_main_v9_apply, val_main_v8_apply, e, hM, scores_at,
    Ideal.hostUnary_exp_def, Ideal.subf_def, ← EReal.coe_sub, Ideal.exp_coe]

/-- The row's total weight. -/
theorem totals_at (I : RIn) (n : Fin 16) (r : Fin 2048) (M : ℝ)
    (hM : val_main_v7 (F := Ideal) (arrP I) (arrQ I) (arrW I) (arrB I) (ix2 n r) = (M : EReal)) :
    val_main_v12 (F := Ideal) (arrP I) (arrQ I) (arrW I) (arrB I) (ix2 n r) = ((∑ j, Real.exp (score I n r j - M) : ℝ) : EReal) := by
  have e : ∀ k : Fin 2048, idx_main_v12 (ix2 n r) k = ix3 n r k := fun k => funext fun a => Fin.ext (by
    match a with | ⟨0, _⟩ => rfl | ⟨1, _⟩ => rfl | ⟨2, _⟩ => rfl)
  rw [val_main_v12_apply, val_main_cst_1_apply, Ideal.ofBits_def, Ideal.ofBits_zero_f32, zero_add, coe_sum]
  exact Finset.sum_congr rfl fun k _ => by rw [e k, exps_at I n r k M hM]

/-- The normalised weight. -/
theorem weights_at (I : RIn) (n : Fin 16) (r j : Fin 2048) (M : ℝ)
    (hM : val_main_v7 (F := Ideal) (arrP I) (arrQ I) (arrW I) (arrB I) (ix2 n r) = (M : EReal)) :
    val_main_v15 (F := Ideal) (arrP I) (arrQ I) (arrW I) (arrB I) (ix3 n r j)
      = ((Real.exp (score I n r j - M) / (∑ j', Real.exp (score I n r j' - M)) : ℝ) : EReal) := by
  have e : idx_main_v13 (idx_main_v14 (ix3 n r j)) = ix2 n r := funext fun a => Fin.ext (by
    match a with | ⟨0, _⟩ => rfl | ⟨1, _⟩ => rfl)
  rw [val_main_v15_apply, val_main_v14_apply, val_main_v13_apply, e, exps_at I n r j M hM, totals_at I n r M hM,
    Ideal.hostDivf_def, Ideal.div_coe (total_ne I n r M), ← EReal.coe_mul, ← div_eq_mul_one_div]

/-- The weights contracted with the rows of q: the mean. -/
theorem mean_at (I : RIn) (n : Fin 16) (r : Fin 2048) (h : Fin 1024) :
    val_main_v16 (F := Ideal) (arrP I) (arrQ I) (arrW I) (arrB I) (ix3 n r h) = ((attn I n r h : ℝ) : EReal) := by
  obtain ⟨M, hM⟩ := rowmax_real I n r
  have el : ∀ k : Fin 2048, lidx_main_v16 (ix3 n r h) k = ix3 n r k := fun k => funext fun a => Fin.ext (by
    match a with | ⟨0, _⟩ => rfl | ⟨1, _⟩ => rfl | ⟨2, _⟩ => rfl)
  have er : ∀ k : Fin 2048, ridx_main_v16 (ix3 n r h) k = ix3 n k h := fun k => funext fun a => Fin.ext (by
    match a with | ⟨0, _⟩ => rfl | ⟨1, _⟩ => rfl | ⟨2, _⟩ => rfl)
  rw [val_main_v16_apply, ← attn_of_normalised I n r h M, coe_sum]
  exact Finset.sum_congr rfl fun k _ => by rw [el k, er k, weights_at I n r k M hM, arrQ_ix3, EReal.coe_mul]

/-- The linear map of the mean, plus the bias, clamped at zero. -/
theorem out_at (I : RIn) (n : Fin 16) (r : Fin 2048) (o : Fin 1024) :
    val_main_v21 (F := Ideal) (arrP I) (arrQ I) (arrW I) (arrB I) (ix3 n r o) = ((outR I n r o : ℝ) : EReal) := by
  have el : ∀ k : Fin 1024, lidx_main_v17 (ix3 n r o) k = ix3 n r k := fun k => funext fun a => Fin.ext (by
    match a with | ⟨0, _⟩ => rfl | ⟨1, _⟩ => rfl | ⟨2, _⟩ => rfl)
  have er : ∀ k : Fin 1024, ridx_main_v17 (ix3 n r o) k = ix2 o k := fun k => funext fun a => Fin.ext (by
    match a with | ⟨0, _⟩ => rfl | ⟨1, _⟩ => rfl)
  have eb : idx_main_v18 (idx_main_v19 (ix3 n r o)) = ix1 o := funext fun a => Fin.ext (by
    match a with | ⟨0, _⟩ => rfl)
  have h17 : val_main_v17 (F := Ideal) (arrP I) (arrQ I) (arrW I) (arrB I) (ix3 n r o) = ((∑ h, attn I n r h * I.w o h : ℝ) : EReal) := by
    rw [val_main_v17_apply, coe_sum]
    exact Finset.sum_congr rfl fun k _ => by rw [el k, er k, mean_at, arrW_ix2, EReal.coe_mul]
  rw [val_main_v21_apply, val_main_v20_apply, val_main_v19_apply, val_main_v18_apply, eb, arrB_ix1, h17,
    val_main_call0_v0_apply, val_main_call0_cst_apply, Ideal.ofBits_def, Ideal.ofBits_zero_f32,
    Ideal.addf_def, Ideal.maximumf_def, ← EReal.coe_add, ← EReal.coe_zero]
  exact (EReal.coe_strictMono.monotone.map_max).symm

end RefStage

/-- The reference's last stage over real argument arrays is the specification. -/
theorem ref_value [Cert.ReferenceIdeal.Facts] (I : RIn) :
    Cert.ReferenceIdeal.Read.val_main_v21 (F := Ideal) (arrP I) (arrQ I) (arrW I) (arrB I) = G I := by
  funext i
  obtain ⟨n, r, o, rfl⟩ : ∃ (n : Fin 16) (r : Fin 2048) (o : Fin 1024), i = ix3 n r o := ⟨i 0, i 1, i 2, eq_ix3 i⟩
  rw [G_ix3]
  exact RefStage.out_at I n r o

end Cert.Attn

end
-- ==== Proof.Finite.lean ====
/-
  Finite inputs are real inputs: when the precondition holds of four arrays of extended reals, every entry is a real
  number, so the arrays are the coercions of four real arrays.

  The precondition is, array by array, the conjunction over all entries x of |x| < +∞, where |x| = max x (-x). An
  extended real whose absolute value is strictly below +∞ is neither +∞ (then |x| = +∞) nor -∞ (then |x| = +∞ too), so it
  is the coercion of its real part.
-/
import proofs.«419783_j44547400794507_3_alg».proof.Proof.Spec
import proofs.«419783_j44547400794507_3_alg».proof.Pre_finite_inputs
import Idealize.ShloMosaic.Lib.ReduceAll
import Idealize.ShloMosaic.Lib.ValueIdx
import Idealize.ShloMosaic.PureOps.Ideal.Laws

noncomputable section

namespace Cert.Attn

open Idealize.ShloMosaic Idealize.ShloMosaic.ValueIdx

/-- The bit pattern the precondition compares against is +∞. -/
private theorem inf_pattern : Ideal.ofBits .f32 0x7F800000#32 = ⊤ := by simp [Ideal.ofBits, Ideal.ieee]

/-- An extended real with max x (-x) < +∞ is neither +∞ nor -∞. -/
private theorem finite_of_abs_lt (x : EReal)
    (hx : Ideal.cmp .olt (max x (-x)) (Ideal.ofBits .f32 0x7F800000#32) = 1#1) : x ≠ ⊤ ∧ x ≠ ⊥ := by
  rw [inf_pattern] at hx
  have hlt : max x (-x) < ⊤ := by
    by_contra hn
    simp [Ideal.cmp, hn] at hx
  induction x using EReal.rec with
  | bot => exact absurd hlt (by simp)
  | coe r => exact ⟨EReal.coe_ne_top r, EReal.coe_ne_bot r⟩
  | top => exact absurd hlt (by simp)

/-- The scalar shape has one index. -/
private instance : Subsingleton Cert.Pre_finite_inputs.S_.Idx := ⟨fun a b => funext fun d => d.elim0⟩

/-- One array's share of the precondition: if the conjunction over all entries of |x| < +∞ is true, every entry is
    neither +∞ nor -∞. -/
private theorem all_finite {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (x : FVec Ideal S .f32)
    (e : Host.reduce IntOp.andi
        (cmpf .olt (Host.absf x)
          (broadcastInDim S ![] hb (constant (F := Ideal) Cert.Pre_finite_inputs.S_ .f32 0x7F800000#32)))
        (constantI Cert.Pre_finite_inputs.S_ 1 1#1) hr hu ix0 = 1#1)
    (i : S.Idx) : x i ≠ ⊤ ∧ x i ≠ ⊥ :=
  finite_of_abs_lt (x i) (Host.reduce_andi_all _ _ hr hu ix0 e i)

/-- Four arrays of which the precondition holds are real arrays. -/
theorem exists_model [Cert.Pre_finite_inputs.Facts]
    (x0 x1 : FVec Ideal (⟨3, ![16, 2048, 1024]⟩ : Shape) .f32) (x2 : FVec Ideal (⟨2, ![1024, 1024]⟩ : Shape) .f32)
    (x3 : FVec Ideal (⟨1, ![1024]⟩ : Shape) .f32)
    (h : Cert.Pre_finite_inputs.fn (F := Ideal) x0 x1 x2 x3 = fun _ => 1#1) :
    ∃ I : RIn, x0 = arrP I ∧ x1 = arrQ I ∧ x2 = arrW I ∧ x3 = arrB I := by
  have e := congrFun h ix0
  dsimp only [Cert.Pre_finite_inputs.fn, Cert.Pre_finite_inputs.fn_part1] at e
  obtain ⟨e012, e3⟩ := IntOp.andi_eq_one.1 e
  obtain ⟨e01, e2⟩ := IntOp.andi_eq_one.1 e012
  obtain ⟨e0, e1⟩ := IntOp.andi_eq_one.1 e01
  have f0 := all_finite _ _ _ x0 e0
  have f1 := all_finite _ _ _ x1 e1
  have f2 := all_finite _ _ _ x2 e2
  have f3 := all_finite _ _ _ x3 e3
  refine ⟨⟨fun n r c => (x0 (ix3 n r c)).toReal, fun n r c => (x1 (ix3 n r c)).toReal,
    fun o c => (x2 (ix2 o c)).toReal, fun o => (x3 (ix1 o)).toReal⟩, ?_, ?_, ?_, ?_⟩
  · funext i
    obtain ⟨n, r, c, rfl⟩ : ∃ (n : Fin 16) (r : Fin 2048) (c : Fin 1024), i = ix3 n r c := ⟨i 0, i 1, i 2, eq_ix3 i⟩
    rw [arrP_ix3]
    exact (EReal.coe_toReal (f0 _).1 (f0 _).2).symm
  · funext i
    obtain ⟨n, r, c, rfl⟩ : ∃ (n : Fin 16) (r : Fin 2048) (c : Fin 1024), i = ix3 n r c := ⟨i 0, i 1, i 2, eq_ix3 i⟩
    rw [arrQ_ix3]
    exact (EReal.coe_toReal (f1 _).1 (f1 _).2).symm
  · funext i
    obtain ⟨o, c, rfl⟩ : ∃ (o c : Fin 1024), i = ix2 o c := ⟨i 0, i 1, eq_ix2 i⟩
    rw [arrW_ix2]
    exact (EReal.coe_toReal (f2 _).1 (f2 _).2).symm
  · funext i
    obtain ⟨o, rfl⟩ : ∃ o : Fin 1024, i = ix1 o := ⟨i 0, eq_ix1 i⟩
    rw [arrB_ix1]
    exact (EReal.coe_toReal (f3 _).1 (f3 _).2).symm

end Cert.Attn

end
-- ==== Proof.lean ====
/-
  A fused attention kernel against its plain reference, over the extended reals.

  The kernel walks, for each of 16 batches, over four blocks of 512 columns of q. At each block it projects the block's
  rows through w and the bias, takes their dot products with the 2048 rows of p, and updates a running softmax state
  kept between blocks: a shift per row (the largest score so far), the total weight ∑ e^(score − shift) and the
  weighted sums ∑ e^(score − shift) · q-row. Moving the shift rescales both totals by e^(old − new). After the last
  block it divides the weighted sums by the total weight, applies w and the bias once more and clamps at zero.
  Every matrix operand is split into a rounded part and the remainder x − rounded(x); with exact arithmetic the rounded
  part is x itself and the remainder is zero, so the two extra products add nothing: this is where the precondition
  that all inputs are finite is used, since x − x = 0 fails at an infinity.
  The reference computes all 2048 scores of a row at once, subtracts the row maximum, exponentiates, normalises by
  the total, contracts with q's rows, and ends with the same linear map, bias and clamp.
  Both are the exponentially weighted mean of q's rows, which does not depend on the shift subtracted before
  exponentiating; so neither maximum has to be computed, only known to be a real number.

  The three frames are the generated ones (the reference's is its generated run with the result dropped); the
  idealization rewrote three round trips through the narrower format into the identity, each restated by its rule;
  the value claim sets the kernel's run, read through the induction over the grid points, beside the reference's run,
  read stage by stage, over the real arrays the precondition provides.
-/
import proofs.«419783_j44547400794507_3_alg».proof.Defs
import proofs.«419783_j44547400794507_3_alg».proof.Proof.Gen.Kernel
import proofs.«419783_j44547400794507_3_alg».proof.Proof.Gen.Kernel.Skeleton
import proofs.«419783_j44547400794507_3_alg».proof.Proof.Gen.Kernel.Launch
import proofs.«419783_j44547400794507_3_alg».proof.Proof.Gen.Kernel.Points
import proofs.«419783_j44547400794507_3_alg».proof.Proof.Gen.Kernel.Frame
import proofs.«419783_j44547400794507_3_alg».proof.Proof.Gen.KernelIdeal
import proofs.«419783_j44547400794507_3_alg».proof.Proof.Gen.KernelIdeal.Skeleton
import proofs.«419783_j44547400794507_3_alg».proof.Proof.Gen.KernelIdeal.Launch
import proofs.«419783_j44547400794507_3_alg».proof.Proof.Gen.KernelIdeal.Points
import proofs.«419783_j44547400794507_3_alg».proof.Proof.Gen.KernelIdeal.Frame
import proofs.«419783_j44547400794507_3_alg».proof.Proof.Gen.ReferenceIdeal
import proofs.«419783_j44547400794507_3_alg».proof.Proof.Gen.KernelIdeal.Value
import proofs.«419783_j44547400794507_3_alg».proof.Proof.Gen.ReferenceIdeal.Run
import proofs.«419783_j44547400794507_3_alg».proof.Proof.Gen.ReferenceIdeal.Read
import proofs.«419783_j44547400794507_3_alg».proof.Proof.Gen.Pre_finite_inputs
import proofs.«419783_j44547400794507_3_alg».proof.Proof.KernelRun
import proofs.«419783_j44547400794507_3_alg».proof.Proof.RefValue
import proofs.«419783_j44547400794507_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The three rewritten round trips through the narrower format, each the identity on exact values. -/
theorem preserves : Cert.preserves_Kernel_KernelIdeal :=
  ⟨IdealRules.truncf_extf.statement Cert.KernelIdeal.S2048x1024 .f32 .bf16,
   IdealRules.truncf_extf.statement Cert.KernelIdeal.S512x1024 .f32 .bf16,
   IdealRules.truncf_extf.statement Cert.KernelIdeal.S512x1024 .f32 .bf16⟩

/-- From memories that agree on the four arguments, of which the precondition holds, both programs end with the
    specification's array of the real arguments. -/
theorem algebraic : Cert.algebraic_KernelIdeal_ReferenceIdeal := by
  intro m ρ m' ρ' hpre hagree
  have hex : ∀ c : Dev Cert.KernelIdeal.nD, ∃ J : Cert.Attn.RIn,
      (m ((c.tc : Thread Cert.KernelIdeal.nD Cert.KernelIdeal.τ).loc Cert.KernelIdeal.main_arg0) : FVec Ideal Cert.KernelIdeal.S16x2048x1024 .f32) = Cert.Attn.arrP J
      ∧ (m ((c.tc : Thread Cert.KernelIdeal.nD Cert.KernelIdeal.τ).loc Cert.KernelIdeal.main_arg1) : FVec Ideal Cert.KernelIdeal.S16x2048x1024 .f32) = Cert.Attn.arrQ J
      ∧ (m ((c.tc : Thread Cert.KernelIdeal.nD Cert.KernelIdeal.τ).loc Cert.KernelIdeal.main_arg2) : FVec Ideal Cert.KernelIdeal.S1024x1024 .f32) = Cert.Attn.arrW J
      ∧ (m ((c.tc : Thread Cert.KernelIdeal.nD Cert.KernelIdeal.τ).loc Cert.KernelIdeal.main_arg3) : FVec Ideal Cert.KernelIdeal.S1024 .f32) = Cert.Attn.arrB J :=
    fun c => Cert.Attn.exists_model _ _ _ _ (hpre c)
  choose I hI using hex
  have hM : Cert.Attn.Models m I := fun c => hI c
  refine ⟨fun c => Cert.Attn.Gbuf (I c) c, Cert.Attn.kernel_run ρ hM, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  rw [Cert.ReferenceIdeal.Read.val_main_v21_eq]
  rw [(hI c).1, (hI c).2.1, (hI c).2.2.1, (hI c).2.2.2]
  exact Cert.Attn.ref_value (I c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
